-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S_ : Shape := ⟨0, ![]⟩

class Facts : Prop where
  bcast_S_S16x300x512 : S_.BroadcastsInDim S16x300x512 (![] : Fin 0 → Fin S16x300x512.rank)
  reducesTo_S16x300x512_S_d0_1_2 : S16x300x512.ReducesTo [0, 1, 2] S_
  h_S_ : 0 < S_.numel
  bcast_S_S16x30x512 : S_.BroadcastsInDim S16x30x512 (![] : Fin 0 → Fin S16x30x512.rank)
  reducesTo_S16x30x512_S_d0_1_2 : S16x30x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S500x512 : S_.BroadcastsInDim S500x512 (![] : Fin 0 → Fin S500x512.rank)
  reducesTo_S500x512_S_d0_1 : S500x512.ReducesTo [0, 1] S_
  bcast_S_S500 : S_.BroadcastsInDim S500 (![] : Fin 0 → Fin S500.rank)
  reducesTo_S500_S_d0 : S500.ReducesTo [0] S_

variable [Facts]

def fn_part2 {F : FTy → Type} [FloatOps F] (main_arg7 : FVec F S500 .f32) (main_v33 : IVec S_ 1) : IVec S_ 1 :=
  let main_v34 : FVec F S500 .f32 := Host.absf main_arg7
  let main_cst_12 : FVec F S_ .f32 := constant S_ .f32 0x7F800000#32
  let main_v35 : FVec F S500 .f32 := broadcastInDim S500 ![] bcast_S_S500 main_cst_12
  let main_v36 : IVec S500 1 := cmpf .olt main_v34 main_v35
  let main_c_13 : IVec S_ 1 := constantI S_ 1 1#1
  let main_v37 : IVec S_ 1 := (fun x v => Host.reduce IntOp.andi x v reducesTo_S500_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S500x512 .f32) (main_arg7 : FVec F S500 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S500x512 .f32 := Host.absf main_arg6
  let main_cst_10 : FVec F S_ .f32 := constant S_ .f32 0x7F800000#32
  let main_v30 : FVec F S500x512 .f32 := broadcastInDim S500x512 ![] bcast_S_S500x512 main_cst_10
  let main_v31 : IVec S500x512 1 := cmpf .olt main_v29 main_v30
  let main_c_11 : IVec S_ 1 := constantI S_ 1 1#1
  let main_v32 : IVec S_ 1 := (fun x v => Host.reduce IntOp.andi x v reducesTo_S500x512_S_d0_1 h_S_) main_v31 main_c_11
  let main_v33 : IVec S_ 1 := andi main_v28 main_v32
  fn_part2 (F := F) main_arg7 main_v33

def fn {F : FTy → Type} [FloatOps F] (main_arg0 : FVec F S16x300x512 .f32) (main_arg1 : FVec F S16x30x512 .f32) (main_arg2 : FVec F S512x512 .f32) (main_arg3 : FVec F S512 .f32) (main_arg4 : FVec F S512x512 .f32) (main_arg5 : FVec F S512 .f32) (main_arg6 : FVec F S500x512 .f32) (main_arg7 : FVec F S500 .f32) : IVec S_ 1 :=
  let main_v0 : FVec F S16x300x512 .f32 := Host.absf main_arg0
  let main_cst : FVec F S_ .f32 := constant S_ .f32 0x7F800000#32
  let main_v1 : FVec F S16x300x512 .f32 := broadcastInDim S16x300x512 ![] bcast_S_S16x300x512 main_cst
  let main_v2 : IVec S16x300x512 1 := cmpf .olt main_v0 main_v1
  let main_c : IVec S_ 1 := constantI S_ 1 1#1
  let main_v3 : IVec S_ 1 := (fun x v => Host.reduce IntOp.andi x v reducesTo_S16x300x512_S_d0_1_2 h_S_) main_v2 main_c
  let main_v4 : FVec F S16x30x512 .f32 := Host.absf main_arg1
  let main_cst_0 : FVec F S_ .f32 := constant S_ .f32 0x7F800000#32
  let main_v5 : FVec F S16x30x512 .f32 := broadcastInDim S16x30x512 ![] bcast_S_S16x30x512 main_cst_0
  let main_v6 : IVec S16x30x512 1 := cmpf .olt main_v4 main_v5
  let main_c_1 : IVec S_ 1 := constantI S_ 1 1#1
  let main_v7 : IVec S_ 1 := (fun x v => Host.reduce IntOp.andi x v reducesTo_S16x30x512_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S16x300x30x500 : Shape := ⟨4, ![16, 300, 30, 500]⟩
abbrev S1x128x512 : Shape := ⟨3, ![1, 128, 512]⟩
abbrev S1x30x512 : Shape := ⟨3, ![1, 30, 512]⟩
abbrev S1x128x30x500 : Shape := ⟨4, ![1, 128, 30, 500]⟩
abbrev S128x512 : Shape := ⟨2, ![128, 512]⟩
abbrev S30x512 : Shape := ⟨2, ![30, 512]⟩
abbrev S1x512 : Shape := ⟨2, ![1, 512]⟩
abbrev S128x1x512 : Shape := ⟨3, ![128, 1, 512]⟩
abbrev S128x30x512 : Shape := ⟨3, ![128, 30, 512]⟩
abbrev S3840x512 : Shape := ⟨2, ![3840, 512]⟩
abbrev S3840x500 : Shape := ⟨2, ![3840, 500]⟩
abbrev S1x500 : Shape := ⟨2, ![1, 500]⟩
abbrev S128x30x500 : Shape := ⟨3, ![128, 30, 500]⟩

abbrev nBuf : Space → Nat
  | .hbm => 9
  | .vmem => 12
  | .smem => 0
  | _ => 0

abbrev bufTy : (tb : Table) → Fin (tcTables nBuf tb) → BufTy
  | .hbm, ⟨0, _⟩ => ⟨S16x300x512, .f32⟩
  | .hbm, ⟨1, _⟩ => ⟨S16x30x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S16x300x30x500, .f32⟩
  | .local _ .vmem, ⟨0, _⟩ => ⟨S1x128x512, .f32⟩
  | .local _ .vmem, ⟨1, _⟩ => ⟨S1x128x512, .f32⟩
  | .local _ .vmem, ⟨2, _⟩ => ⟨S1x30x512, .f32⟩
  | .local _ .vmem, ⟨3, _⟩ => ⟨S1x30x512, .f32⟩
  | .local _ .vmem, ⟨4, _⟩ => ⟨S512x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S500x512, .f32⟩
  | .local _ .vmem, ⟨9, _⟩ => ⟨S500, .f32⟩
  | .local _ .vmem, ⟨10, _⟩ => ⟨S1x128x30x500, .f32⟩
  | .local _ .vmem, ⟨11, _⟩ => ⟨S1x128x30x500, .f32⟩
  | _, _ => ⟨S16x300x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S500x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x30x500 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  bitsLt_bf16_f32 : FTy.bits .bf16 < FTy.bits .f32
  inb_S1x30x512_S1x30x512_0_0_0 : ∀ a, (![0, 0, 0] : Fin 3 → Nat) a + S1x30x512.size a ≤ S1x30x512.size a
  h_S1x30x512 : 0 < S1x30x512.numel
  shapeCasts_S1x30x512_S30x512 : S1x30x512.ShapeCasts S30x512
  inb_S512x512_S512x512_0_0 : ∀ a, (![0, 0] : Fin 2 → Nat) a + S512x512.size a ≤ S512x512.size a
  h_S512x512 : 0 < S512x512.numel
  inb_S500x512_S500x512_0_0 : ∀ a, (![0, 0] : Fin 2 → Nat) a + S500x512.size a ≤ S500x512.size a
  h_S500x512 : 0 < S500x512.numel
  inb_S512_S512_0 : ∀ a, (![0] : Fin 1 → Nat) a + S512.size a ≤ S512.size a
  h_S512 : 0 < S512.numel
  inb_S500_S500_0 : ∀ a, (![0] : Fin 1 → Nat) a + S500.size a ≤ S500.size a
  h_S500 : 0 < S500.numel
  shapeCasts_S512_S1x512 : S512.ShapeCasts S1x512
  broadcasts_S1x512_S128x512 : S1x512.Broadcasts S128x512
  broadcasts_S1x512_S30x512 : S1x512.Broadcasts S30x512
  shapeCasts_S128x512_S128x1x512 : S128x512.ShapeCasts S128x1x512
  shapeCasts_S30x512_S1x30x512 : S30x512.ShapeCasts S1x30x512
  broadcasts_S128x1x512_S128x30x512 : S128x1x512.Broadcasts S128x30x512
  broadcasts_S1x30x512_S128x30x512 : S1x30x512.Broadcasts S128x30x512
  shapeCasts_S128x30x512_S3840x512 : S128x30x512.ShapeCasts S3840x512
  shapeCasts_S500_S1x500 : S500.ShapeCasts S1x500
  broadcasts_S1x500_S3840x500 : S1x500.Broadcasts S3840x500
  shapeCasts_S3840x500_S128x30x500 : S3840x500.ShapeCasts S128x30x500
  inb_S1x128x30x500_S1x128x30x500_0_0_0_0 : ∀ a, (![0, 0, 0, 0] : Fin 4 → Nat) a + S1x128x30x500.size a ≤ S1x128x30x500.size a
  h_S1x128x30x500 : 0 < S1x128x30x500.numel
  shapeCasts_S1x128x30x500_S128x30x500 : S1x128x30x500.ShapeCasts S128x30x500
  shapeCasts_S128x30x500_S1x128x30x500 : S128x30x500.ShapeCasts S1x128x30x500
  dot_S128x512_S512x512_S128x512_1_1_0_0_n_n_wf : DotDims.WF S128x512 S512x512 S128x512 [1] [1] [0] [0] [] []
  dot_S30x512_S512x512_S30x512_1_1_0_0_n_n_wf : DotDims.WF S30x512 S512x512 S30x512 [1] [1] [0] [0] [] []
  dot_S3840x512_S500x512_S3840x500_1_1_0_0_n_n_wf : DotDims.WF S3840x512 S500x512 S3840x500 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x128x512.size a < S16x300x512.size a
  hwx0_0 : ∀ i : grid0.Coords, EltTy.bits .f32 = 32 ∨ (Rect.unit (s := S16x300x512) (fun a => cc0_transform_0 i a * S1x128x512.size a) (fun a => (Pipeline.Clip.of (cc0_transform_0 i a) (S1x128x512.size a) (S16x300x512.size a)).extent (S1x128x512.size a)) fun a => Pipeline.Clip.inb (Pipeline.Clip.ok_of (hstart0_0 i a))).WholeWords (EltTy.packing .f32)
  hwxs0_0 : ∀ i : grid0.Coords, EltTy.bits .f32 = 32 ∨ (Rect.unit (s := S1x128x512) (fun _ => 0) (fun a => (Pipeline.Clip.of (cc0_transform_0 i a) (S1x128x512.size a) (S16x300x512.size a)).extent (S1x128x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x30x512.size a ≤ S16x30x512.size a
  hwx0_1 : ∀ i : grid0.Coords, EltTy.bits .f32 = 32 ∨ (Rect.block (s := S16x30x512) S1x30x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S500x512.size a ≤ S500x512.size a
  hwx0_6 : ∀ i : grid0.Coords, EltTy.bits .f32 = 32 ∨ (Rect.block (s := S500x512) S500x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S500.size a ≤ S500.size a
  hwx0_7 : ∀ i : grid0.Coords, EltTy.bits .f32 = 32 ∨ (Rect.block (s := S500) S500.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S1x128x30x500.size a < S16x300x30x500.size a
  hwx0_8 : ∀ i : grid0.Coords, EltTy.bits .f32 = 32 ∨ (Rect.unit (s := S16x300x30x500) (fun a => cc0_transform_8 i a * S1x128x30x500.size a) (fun a => (Pipeline.Clip.of (cc0_transform_8 i a) (S1x128x30x500.size a) (S16x300x30x500.size a)).extent (S1x128x30x500.size a)) fun a => Pipeline.Clip.inb (Pipeline.Clip.ok_of (hstart0_8 i a))).WholeWords (EltTy.packing .f32)
  hwxs0_8 : ∀ i : grid0.Coords, EltTy.bits .f32 = 32 ∨ (Rect.unit (s := S1x128x30x500) (fun _ => 0) (fun a => (Pipeline.Clip.of (cc0_transform_8 i a) (S1x128x30x500.size a) (S16x300x30x500.size a)).extent (S1x128x30x500.size a)) fun a => (Nat.zero_add _).trans_le (Pipeline.Clip.extent_le (Pipeline.Clip.ok_of (hstart0_8 i a)))).WholeWords (EltTy.packing .f32)

variable [Facts₀]

def dot_S128x512_S512x512_S128x512_1_1_0_0_n_n : DotDims S128x512 S512x512 S128x512 where
  lhsContracting := [1]
  rhsContracting := [1]
  lhsNonContracting := [0]
  rhsNonContracting := [0]
  lhsBatch := []
  rhsBatch := []
  wf := dot_S128x512_S512x512_S128x512_1_1_0_0_n_n_wf
def dot_S30x512_S512x512_S30x512_1_1_0_0_n_n : DotDims S30x512 S512x512 S30x512 where
  lhsContracting := [1]
  rhsContracting := [1]
  lhsNonContracting := [0]
  rhsNonContracting := [0]
  lhsBatch := []
  rhsBatch := []
  wf := dot_S30x512_S512x512_S30x512_1_1_0_0_n_n_wf
def dot_S3840x512_S500x512_S3840x500_1_1_0_0_n_n : DotDims S3840x512 S500x512 S3840x500 where
  lhsContracting := [1]
  rhsContracting := [1]
  lhsNonContracting := [0]
  rhsNonContracting := [0]
  lhsBatch := []
  rhsBatch := []
  wf := dot_S3840x512_S500x512_S3840x500_1_1_0_0_n_n_wf

abbrev win0_0 : Pipeline.Window sig grid0 :=
  Pipeline.Window.ofSpecClip (Memref.whole main_arg0) S1x128x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S1x30x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S500x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpecClip (Memref.whole main_v0) S1x128x30x500.size cc0_transform_8 reads0_8 true false 2 stage0_8 sem0_8
    hrank0 hreads0_8 hstart0_8 nbuf0_8 (Memref.isWhole_whole _) hwx0_8 hwxs0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x300x512 : Shape := ⟨3, ![16, 300, 512]⟩
abbrev S16x30x512 : Shape := ⟨3, ![16, 30, 512]⟩
abbrev S512x512 : Shape := ⟨2, ![512, 512]⟩
abbrev S512 : Shape := ⟨1, ![512]⟩
abbrev S500x512 : Shape := ⟨2, ![500, 512]⟩
abbrev S500 : Shape := ⟨1, ![500]⟩
abbrev S1x1x512 : Shape := ⟨3, ![1, 1, 512]⟩
abbrev S16x300x1x512 : Shape := ⟨4, ![16, 300, 1, 512]⟩
abbrev S16x1x30x512 : Shape := ⟨4, ![16, 1, 30, 512]⟩
abbrev S16x300x30x512 : Shape := ⟨4, ![16, 300, 30, 512]⟩
abbrev S16x300x30x500 : Shape := ⟨4, ![16, 300, 30, 500]⟩
abbrev S1x1x1x500 : Shape := ⟨4, ![1, 1, 1, 500]⟩

abbrev nBuf : Space → Nat
  | .hbm => 25
  | .vmem => 0
  | .smem => 0
  | _ => 0

abbrev bufTy : (tb : Table) → Fin (tcTables nBuf tb) → BufTy
  | .hbm, ⟨0, _⟩ => ⟨S16x300x512, .f32⟩
  | .hbm, ⟨1, _⟩ => ⟨S16x30x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S500x512, .f32⟩
  | .hbm, ⟨7, _⟩ => ⟨S500, .f32⟩
  | .hbm, ⟨8, _⟩ => ⟨S16x300x512, .f32⟩
  | .hbm, ⟨9, _⟩ => ⟨S1x1x512, .f32⟩
  | .hbm, ⟨10, _⟩ => ⟨S16x300x512, .f32⟩
  | .hbm, ⟨11, _⟩ => ⟨S16x300x512, .f32⟩
  | .hbm, ⟨12, _⟩ => ⟨S16x30x512, .f32⟩
  | .hbm, ⟨13, _⟩ => ⟨S1x1x512, .f32⟩
  | .hbm, ⟨14, _⟩ => ⟨S16x30x512, .f32⟩
  | .hbm, ⟨15, _⟩ => ⟨S16x30x512, .f32⟩
  | .hbm, ⟨16, _⟩ => ⟨S16x300x1x512, .f32⟩
  | .hbm, ⟨17, _⟩ => ⟨S16x1x30x512, .f32⟩
  | .hbm, ⟨18, _⟩ => ⟨S16x300x30x512, .f32⟩
  | .hbm, ⟨19, _⟩ => ⟨S16x300x30x512, .f32⟩
  | .hbm, ⟨20, _⟩ => ⟨S16x300x30x512, .f32⟩
  | .hbm, ⟨21, _⟩ => ⟨S16x300x30x500, .f32⟩
  | .hbm, ⟨22, _⟩ => ⟨S1x1x1x500, .f32⟩
  | .hbm, ⟨23, _⟩ => ⟨S16x300x30x500, .f32⟩
  | .hbm, ⟨24, _⟩ => ⟨S16x300x30x500, .f32⟩
  | _, _ => ⟨S16x300x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S16x300x512_0_1_2 : S1x1x512.BroadcastsInDim S16x300x512 (![0, 1, 2] : Fin 3 → Fin S16x300x512.rank)
  bcast_S1x1x512_S16x30x512_0_1_2 : S1x1x512.BroadcastsInDim S16x30x512 (![0, 1, 2] : Fin 3 → Fin S16x30x512.rank)
  bcast_S16x300x512_S16x300x1x512_0_1_3 : S16x300x512.BroadcastsInDim S16x300x1x512 (![0, 1, 3] : Fin 3 → Fin S16x300x1x512.rank)
  bcast_S16x30x512_S16x1x30x512_0_2_3 : S16x30x512.BroadcastsInDim S16x1x30x512 (![0, 2, 3] : Fin 3 → Fin S16x1x30x512.rank)
  bcast_S16x300x1x512_S16x300x30x512_0_1_2_3 : S16x300x1x512.BroadcastsInDim S16x300x30x512 (![0, 1, 2, 3] : Fin 4 → Fin S16x300x30x512.rank)
  bcast_S16x1x30x512_S16x300x30x512_0_1_2_3 : S16x1x30x512.BroadcastsInDim S16x300x30x512 (![0, 1, 2, 3] : Fin 4 → Fin S16x300x30x512.rank)
  bcast_S500_S1x1x1x500_3 : S500.BroadcastsInDim S1x1x1x500 (![3] : Fin 1 → Fin S1x1x1x500.rank)
  bcast_S1x1x1x500_S16x300x30x500_0_1_2_3 : S1x1x1x500.BroadcastsInDim S16x300x30x500 (![0, 1, 2, 3] : Fin 4 → Fin S16x300x30x500.rank)
  dot_S16x300x512_S512x512_S16x300x512_2_1_01_0_n_n_wf : DotDims.WF S16x300x512 S512x512 S16x300x512 [2] [1] [0, 1] [0] [] []
  dot_S16x30x512_S512x512_S16x30x512_2_1_01_0_n_n_wf : DotDims.WF S16x30x512 S512x512 S16x30x512 [2] [1] [0, 1] [0] [] []
  dot_S16x300x30x512_S500x512_S16x300x30x500_3_1_012_0_n_n_wf : DotDims.WF S16x300x30x512 S500x512 S16x300x30x500 [3] [1] [0, 1, 2] [0] [] []

variable [Facts₀]

def dot_S16x300x512_S512x512_S16x300x512_2_1_01_0_n_n : DotDims S16x300x512 S512x512 S16x300x512 where
  lhsContracting := [2]
  rhsContracting := [1]
  lhsNonContracting := [0, 1]
  rhsNonContracting := [0]
  lhsBatch := []
  rhsBatch := []
  wf := dot_S16x300x512_S512x512_S16x300x512_2_1_01_0_n_n_wf
def dot_S16x30x512_S512x512_S16x30x512_2_1_01_0_n_n : DotDims S16x30x512 S512x512 S16x30x512 where
  lhsContracting := [2]
  rhsContracting := [1]
  lhsNonContracting := [0, 1]
  rhsNonContracting := [0]
  lhsBatch := []
  rhsBatch := []
  wf := dot_S16x30x512_S512x512_S16x30x512_2_1_01_0_n_n_wf
def dot_S16x300x30x512_S500x512_S16x300x30x500_3_1_012_0_n_n : DotDims S16x300x30x512 S500x512 S16x300x30x500 where
  lhsContracting := [3]
  rhsContracting := [1]
  lhsNonContracting := [0, 1, 2]
  rhsNonContracting := [0]
  lhsBatch := []
  rhsBatch := []
  wf := dot_S16x300x30x512_S500x512_S16x300x30x500_3_1_012_0_n_n_wf

class Facts : Prop extends Facts₀ where

variable [Facts]
-- ==== Proof.BBody.lean ====
/-
  The joiner kernel's body on whole staging buffers, at any float instance: eight whole loads (the frame block, the
  position block, the three weight matrices, the three biases), the pure arithmetic, one dead load of the result's
  buffer, and ONE whole store of the result block. What the result's buffer holds afterwards is named `outBlk`:
  the one stored piece, the body's arithmetic applied to the eight loaded blocks. The eight input buffers are
  left as they were found.
-/
import proofs.«132632_j6803228197541_1_alg».proof.Proof.Gen.Kernel.Launch
import proofs.«132632_j6803228197541_1_alg».proof.Proof.Gen.Kernel.Skeleton
import proofs.«132632_j6803228197541_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rEnc : Rect S1x128x512 := Rect.unit (s := S1x128x512) ![0, 0, 0] S1x128x512.size inb_S1x128x512_S1x128x512_0_0_0
abbrev rDec : Rect S1x30x512 := Rect.unit (s := S1x30x512) ![0, 0, 0] S1x30x512.size inb_S1x30x512_S1x30x512_0_0_0
abbrev rW : Rect S512x512 := Rect.unit (s := S512x512) ![0, 0] S512x512.size inb_S512x512_S512x512_0_0
abbrev rB : Rect S512 := Rect.unit (s := S512) ![0] S512.size inb_S512_S512_0
abbrev rWo : Rect S500x512 := Rect.unit (s := S500x512) ![0, 0] S500x512.size inb_S500x512_S500x512_0_0
abbrev rBo : Rect S500 := Rect.unit (s := S500) ![0] S500.size inb_S500_S500_0
abbrev rOut : Rect S1x128x30x500 := Rect.unit (s := S1x128x30x500) ![0, 0, 0, 0] S1x128x30x500.size inb_S1x128x30x500_S1x128x30x500_0_0_0_0

/-! ## What the body leaves in the result's buffer -/

/-- The result's staging buffer after the body, from what the eight input buffers hold (`x0` the frame block, `x1`
    the position block, `x2` / `x3` the encoder weights and bias, `x4` / `x5` the decoder's, `x6` / `x7` the vocabulary's):
    its one store as a piece. -/
def outBlk (x0 : Vec F S1x128x512 .f32) (x1 : Vec F S1x30x512 .f32) (x2 : Vec F S512x512 .f32) (x3 : Vec F S512 .f32)
    (x4 : Vec F S512x512 .f32) (x5 : Vec F S512 .f32) (x6 : Vec F S500x512 .f32) (x7 : Vec F S500 .f32) : Vec F S1x128x30x500 .f32 :=
  View.canon [⟨rOut, k0_pay1 (k0_pay2 (View.ld x0 rEnc) (View.ld x1 rDec) (View.ld x2 rW) (View.ld x4 rW) (View.ld x6 rWo)
    (View.ld x3 rB) (View.ld x5 rB) (View.ld x7 rBo))⟩]

/-- The one store covers the buffer. -/
theorem coverOut (p0 : Vec F S1x128x30x500 .f32) (y : S1x128x30x500.Idx) :
    ∃ pc ∈ ([⟨rOut, p0⟩] : List (View.Piece (Elt F) S1x128x30x500 .f32)), y ∈ pc.1.set :=
  View.cover_of_tiled [⟨rOut, p0⟩] S1x128x30x500.size (by rfl) y

/-! ## The body's triple -/

set_option maxHeartbeats 1000000 in
/-- The kernel body on whole staging memrefs, the inputs' at contents `x0 … x7` and the result's at anything, runs to
    the continuation holding the inputs' as they were and the result's at `outBlk` of them. -/
theorem sound_kernel (c : Dev nD) (E : Set ℕ) (i : grid0.Coords)
    (arg2 : Memref sig .tc .vmem S1x128x512 .f32) (harg2 : arg2.IsWhole) (arg3 : Memref sig .tc .vmem S1x30x512 .f32) (harg3 : arg3.IsWhole)
    (arg4 : Memref sig .tc .vmem S512x512 .f32) (harg4 : arg4.IsWhole) (arg5 : Memref sig .tc .vmem S512 .f32) (harg5 : arg5.IsWhole)
    (arg6 : Memref sig .tc .vmem S512x512 .f32) (harg6 : arg6.IsWhole) (arg7 : Memref sig .tc .vmem S512 .f32) (harg7 : arg7.IsWhole)
    (arg8 : Memref sig .tc .vmem S500x512 .f32) (harg8 : arg8.IsWhole) (arg9 : Memref sig .tc .vmem S500 .f32) (harg9 : arg9.IsWhole)
    (arg10 : Memref sig .tc .vmem S1x128x30x500 .f32) (harg10 : arg10.IsWhole)
    (x0 : Vec F S1x128x512 .f32) (x1 : Vec F S1x30x512 .f32) (x2 : Vec F S512x512 .f32) (x3 : Vec F S512 .f32)
    (x4 : Vec F S512x512 .f32) (x5 : Vec F S512 .f32) (x6 : Vec F S500x512 .f32) (x7 : Vec F S500 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (outBlk x0 x1 x2 x3 x4 x5 x6 x7)) -∗ K ⟨⟩))
      ⊢ wp frame (wpE (defs₀ (F := F)) Variants.none c none) E
          (cc0__joiner_kernel i arg2 harg2 arg3 harg3 arg4 harg4 arg5 harg5 arg6 harg6 arg7 harg7 arg8 harg8 arg9 harg9 arg10 harg10) K := by
  simp only [cc0__joiner_kernel_eq_skeleton]; unfold cc0__joiner_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverOut _)

end Cert.Kernel.Hand

end
-- ==== Proof.BFrame.lean ====
/-
  The frame of the word-level joiner program: @main is one pipelined region over a 16 × 3 grid, nine windows. The
  frame claim reads the eight argument arrays only, so the result's window is FORGOTTEN: it is handed to the body at
  some contents and taken back at some contents, and nothing of it is named. The frames' window (window 0) cuts its
  third block at the array's end (300 = 2 · 128 + 44 rows): the fetch fills the rows inside the array and the rest of
  the staging buffer holds words nothing names; the window is loose, so the body obligation states its buffer on the
  moved rows only, and the proof data fill the block out with the zero word. The other seven inputs are uncut and the
  body leaves every input's buffer as it found it.
-/
import proofs.«132632_j6803228197541_1_alg».proof.Proof.BBody
import proofs.«132632_j6803228197541_1_alg».proof.Proof.Gen.Kernel.Frame

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one window forgotten: the result's (window 8). -/
def fgt : Fin 9 → Bool := fun | 0 => false | 1 => false | 2 => false | 3 => false | 4 => false | 5 => false | 6 => false | 7 => false | 8 => true | ⟨_ + 9, h⟩ => absurd h (Nat.not_lt.2 (Nat.le_add_left _ _))

/-- The frames' block at point `t` as a whole staging block: its rows inside the array, filled out past the
    array's end with the zero word (a filler nothing reads: the window is loose). -/
def encBlk (c : Dev nD) (t : Fin cfg0.N) : S1x128x512.Idx → Elt F .f32 :=
  win0_0.fill (grid0.coords t) (fun _ => Scalar.ofBits .f32 0#32) (iblk m c 0 t)

/-- The proof data of the one pipeline on core `c`: the arrays as the region finds them; after the body at point
    `t` the frames' buffer at its block filled out, each other input's buffer at its block, and the result's,
    forgotten, at contents nothing names; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => encBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = encBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- What the body finds: the frames' buffer just fetched (the window fetches at every point), its block on the
    rows inside the array and `d` elsewhere; -/
theorem before0_0 (c : Dev nD) (t : Fin cfg0.N) (d) :
    (dats m 0 c).before 0 t d = win0_0.fill (grid0.coords t) d (iblk m c 0 t) := by
  unfold Dat.before; rw [if_pos (fetch0_0 t)]; rfl
/-- each uncut input's buffer at its block, fetched at this point or not. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- The library's body obligation with the result's window forgotten. At every point the frames' buffer arrives just
    fetched — its block on the rows inside the array, some `d` past them — and the other seven inputs' at their blocks;
    the body's triple on whole buffers runs at those contents and hands the eight back unchanged, the result's at what
    it stored. The frames' buffer is then its block filled out with the same `d`, which on the moved rows is the proof
    data's block (`Window.cut_fill`): all a loose window's obligation states. The result's buffer is handed back at
    some contents. The invariant and the tallies pass through unread. -/
theorem body_obligation (c : Dev nD) :
    BodyObligationLoose (dats (F := F) m 0 c) (defs₀ (F := F)) Variants.none () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl]
  simp only [before0_0, before0_1, before0_2, before0_3, before0_4, before0_5, before0_6, before0_7,
    after0_0, after0_1, after0_2, after0_3, after0_4, after0_5, after0_6, after0_7]
  have hcut : (win0 0).cut (grid0.coords t) (encBlk m c t) = iblk m c 0 t := win0_0.cut_fill _ _ _
  rw [hcut]
  change _ ⊢ wp frame (wpE (defs₀ (F := F)) Variants.none c none) Set.univ (bodyAt0 t) _
  unfold bodyAt0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel (F := F) c Set.univ (grid0.coords t) _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iintro ⟨H0, H1, H2, H3, H4, H5, H6, H7, H8⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

/-! ## The run and the frame -/

set_option backward.isDefEq.respectTransparency.types false in
/-- At the compiled mesh, for any values, from any memory with zero counters: every weakly fair execution of @main on
    the TensorCores terminates, and every final state has every input array of the pipeline at its entry contents,
    nothing stated of the forgotten result, and every other unscoped buffer at its region-entry contents. -/
theorem run_main : θ_run defs (onTc (τ := τ) (main (F := F))) (s₀ m ρ)
    (Pipeline.RDat.FramePost (cfgs 0) (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget)
    (hshare := fun c => ((dats m 0 c).toRForget fgt).share_full fun _ => rfl)
    (howed := fun _ _ => rfl) (V := V m) (hmain := hmain m Variants.none) (hA := A_eq m) (hΦ := fun _ _ => rfl)

/-- THE FRAME: the program runs and its eight argument arrays end as they began — each is an input window's array,
    which the run's post holds at the proof data's entry contents, the array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c))⟩) (run_main m ρ)

end Cert.Kernel.Hand

end
-- ==== Proof.KBody.lean ====
/-
  The joiner kernel's body on whole staging buffers, at any float instance: eight whole loads (the frame block, the
  position block, the three weight matrices, the three biases), the pure arithmetic, one dead load of the result's
  buffer, and ONE whole store of the result block. What the result's buffer holds afterwards is named `outBlk`:
  the one stored piece, the body's arithmetic applied to the eight loaded blocks. The eight input buffers are
  left as they were found.
-/
import proofs.«132632_j6803228197541_1_alg».proof.Proof.Gen.KernelIdeal.Launch
import proofs.«132632_j6803228197541_1_alg».proof.Proof.Gen.KernelIdeal.Skeleton
import proofs.«132632_j6803228197541_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rEnc : Rect S1x128x512 := Rect.unit (s := S1x128x512) ![0, 0, 0] S1x128x512.size inb_S1x128x512_S1x128x512_0_0_0
abbrev rDec : Rect S1x30x512 := Rect.unit (s := S1x30x512) ![0, 0, 0] S1x30x512.size inb_S1x30x512_S1x30x512_0_0_0
abbrev rW : Rect S512x512 := Rect.unit (s := S512x512) ![0, 0] S512x512.size inb_S512x512_S512x512_0_0
abbrev rB : Rect S512 := Rect.unit (s := S512) ![0] S512.size inb_S512_S512_0
abbrev rWo : Rect S500x512 := Rect.unit (s := S500x512) ![0, 0] S500x512.size inb_S500x512_S500x512_0_0
abbrev rBo : Rect S500 := Rect.unit (s := S500) ![0] S500.size inb_S500_S500_0
abbrev rOut : Rect S1x128x30x500 := Rect.unit (s := S1x128x30x500) ![0, 0, 0, 0] S1x128x30x500.size inb_S1x128x30x500_S1x128x30x500_0_0_0_0

/-! ## What the body leaves in the result's buffer -/

/-- The result's staging buffer after the body, from what the eight input buffers hold (`x0` the frame block, `x1`
    the position block, `x2` / `x3` the encoder weights and bias, `x4` / `x5` the decoder's, `x6` / `x7` the vocabulary's):
    its one store as a piece. -/
def outBlk (x0 : Vec F S1x128x512 .f32) (x1 : Vec F S1x30x512 .f32) (x2 : Vec F S512x512 .f32) (x3 : Vec F S512 .f32)
    (x4 : Vec F S512x512 .f32) (x5 : Vec F S512 .f32) (x6 : Vec F S500x512 .f32) (x7 : Vec F S500 .f32) : Vec F S1x128x30x500 .f32 :=
  View.canon [⟨rOut, k0_pay1 (k0_pay2 (View.ld x0 rEnc) (View.ld x1 rDec) (View.ld x2 rW) (View.ld x4 rW) (View.ld x6 rWo)
    (View.ld x3 rB) (View.ld x5 rB) (View.ld x7 rBo))⟩]

/-- The one store covers the buffer. -/
theorem coverOut (p0 : Vec F S1x128x30x500 .f32) (y : S1x128x30x500.Idx) :
    ∃ pc ∈ ([⟨rOut, p0⟩] : List (View.Piece (Elt F) S1x128x30x500 .f32)), y ∈ pc.1.set :=
  View.cover_of_tiled [⟨rOut, p0⟩] S1x128x30x500.size (by rfl) y

/-! ## The body's triple -/

set_option maxHeartbeats 1000000 in
/-- The kernel body on whole staging memrefs, the inputs' at contents `x0 … x7` and the result's at anything, runs to
    the continuation holding the inputs' as they were and the result's at `outBlk` of them. -/
theorem sound_kernel (c : Dev nD) (E : Set ℕ) (i : grid0.Coords)
    (arg2 : Memref sig .tc .vmem S1x128x512 .f32) (harg2 : arg2.IsWhole) (arg3 : Memref sig .tc .vmem S1x30x512 .f32) (harg3 : arg3.IsWhole)
    (arg4 : Memref sig .tc .vmem S512x512 .f32) (harg4 : arg4.IsWhole) (arg5 : Memref sig .tc .vmem S512 .f32) (harg5 : arg5.IsWhole)
    (arg6 : Memref sig .tc .vmem S512x512 .f32) (harg6 : arg6.IsWhole) (arg7 : Memref sig .tc .vmem S512 .f32) (harg7 : arg7.IsWhole)
    (arg8 : Memref sig .tc .vmem S500x512 .f32) (harg8 : arg8.IsWhole) (arg9 : Memref sig .tc .vmem S500 .f32) (harg9 : arg9.IsWhole)
    (arg10 : Memref sig .tc .vmem S1x128x30x500 .f32) (harg10 : arg10.IsWhole)
    (x0 : Vec F S1x128x512 .f32) (x1 : Vec F S1x30x512 .f32) (x2 : Vec F S512x512 .f32) (x3 : Vec F S512 .f32)
    (x4 : Vec F S512x512 .f32) (x5 : Vec F S512 .f32) (x6 : Vec F S500x512 .f32) (x7 : Vec F S500 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (outBlk x0 x1 x2 x3 x4 x5 x6 x7)) -∗ K ⟨⟩))
      ⊢ wp frame (wpE (defs₀ (F := F)) Variants.none c none) E
          (cc0__joiner_kernel i arg2 harg2 arg3 harg3 arg4 harg4 arg5 harg5 arg6 harg6 arg7 harg7 arg8 harg8 arg9 harg9 arg10 harg10) K := by
  simp only [cc0__joiner_kernel_eq_skeleton]; unfold cc0__joiner_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (coverOut _)

end Cert.KernelIdeal.Hand

end
-- ==== Proof.KFrame.lean ====
/-
  The idealized kernel's run, with every array's final contents named.

  The proof data: each array as the region finds it; after the body at point `t` the frame window's buffer at its
  block — the part inside the array, filled out past the array's end with the zero word (the third block along
  the frame axis overhangs the array: 300 = 2·128 + 44, and what its fetch leaves in the buffer's last 84 rows
  nothing names) —, the other seven inputs at their blocks, and the result's buffer at the body's arithmetic
  (`outBlk`) of those. The frame window and the result window are stated on the moved part only, so the
  obligation needs one fact of the arithmetic: the rows of the result block that are written back depend on the
  same rows of the frame block and on no other (`RowsOnly`), which holds wherever a matrix product is a sum of
  products row by row.
-/
import proofs.«132632_j6803228197541_1_alg».proof.Proof.KBody
import proofs.«132632_j6803228197541_1_alg».proof.Proof.Gen.KernelIdeal.Frame

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The frame window's buffer at point `t` as the proof data name it: the block's part inside the array, the rows
    past the array's end at the zero word. -/
def encBlk (c : Dev nD) (t : Fin cfg0.N) : Vec F S1x128x512 .f32 :=
  win0_0.fill (grid0.coords t) (fun _ => Scalar.ofBits .f32 0#32) (iblk m c 0 t)

/-- The result block the body computes from the named buffers at point `t`. -/
def resBlk (c : Dev nD) (t : Fin cfg0.N) : Vec F S1x128x30x500 .f32 :=
  outBlk (encBlk m c t) (iblk m c 1 t) (iblk m c 2 t) (iblk m c 3 t) (iblk m c 4 t) (iblk m c 5 t) (iblk m c 6 t) (iblk m c 7 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => encBlk m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = encBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = resBlk m c t := by dsimp only [dats]

/-- The frame window is fetched at every point: its buffer arrives holding the block's part inside the array and,
    past the array's end, whatever the fetch left (`d`). -/
theorem before0_0 (c : Dev nD) (t : Fin cfg0.N) (d) :
    (dats m 0 c).before 0 t d = win0_0.fill (grid0.coords t) d (iblk m c 0 t) := by
  unfold Dat.before; rw [if_pos (fetch0_0 t)]; rfl
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation -/

/-- The one fact of the body's arithmetic the obligation needs: whatever fills the frame buffer's rows past the
    array's end, the part of the result block that is written back is the same. -/
def RowsOnly : Prop :=
  ∀ (c : Dev nD) (t : Fin cfg0.N) (d : Vec F S1x128x512 .f32),
    win0_8.cut (grid0.coords t)
        (outBlk (win0_0.fill (grid0.coords t) d (iblk m c 0 t)) (iblk m c 1 t) (iblk m c 2 t) (iblk m c 3 t) (iblk m c 4 t)
          (iblk m c 5 t) (iblk m c 6 t) (iblk m c 7 t))
      = win0_8.cut (grid0.coords t) (resBlk m c t)

theorem body_obligation (hrows : RowsOnly m) (c : Dev nD) :
    BodyObligationLoose (dats (F := F) m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0 m c t d0, before0_1 m c t d1, before0_2 m c t d2, before0_3 m c t d3, before0_4 m c t d4,
    before0_5 m c t d5, before0_6 m c t d6, before0_7 m c t d7,
    after0_0, after0_1, after0_2, after0_3, after0_4, after0_5, after0_6, after0_7, after0_8]
  iapply (sound_kernel (F := F) c Set.univ (grid0.coords t) _ _ _ _ _ _ _ _ _ _ _ _ _ _ _ _ _ _
    (win0_0.fill (grid0.coords t) d0 (iblk m c 0 t)) (iblk m c 1 t) (iblk m c 2 t) (iblk m c 3 t) (iblk m c 4 t)
    (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]
  · -- the frame buffer is as it was found: its moved part is the block, the rest whatever the fetch left
    iexists d0
    change _ ⊢ owns (c : Thread nD τ) (stage0_0 (cfg0.slots t 0)) fullShare
      (win0_0.fill (grid0.coords t) d0 (win0_0.cut (grid0.coords t) (encBlk m c t)))
    rw [show win0_0.cut (grid0.coords t) (encBlk m c t) = iblk m c 0 t from win0_0.cut_fill _ _ _]
  isplitl [H1]; · iexact H1
  isplitl [H2]; · iexact H2
  isplitl [H3]; · iexact H3
  isplitl [H4]; · iexact H4
  isplitl [H5]; · iexact H5
  isplitl [H6]; · iexact H6
  isplitl [H7]; · iexact H7
  · -- the result's buffer holds the arithmetic of what the frame buffer really held; on the part written back
    -- that is the named block's (the rows-only fact)
    iexists _
    change _ ⊢ owns (c : Thread nD τ) (stage0_8 (cfg0.slots t 8)) fullShare
      (win0_8.fill (grid0.coords t)
        (outBlk (win0_0.fill (grid0.coords t) d0 (iblk m c 0 t)) (iblk m c 1 t) (iblk m c 2 t) (iblk m c 3 t) (iblk m c 4 t)
          (iblk m c 5 t) (iblk m c 6 t) (iblk m c 7 t))
        (win0_8.cut (grid0.coords t) (resBlk m c t)))
    rw [win0_8.fill_congr_cut (grid0.coords t) (hrows c t d0)]

/-! ## The run -/

set_option backward.isDefEq.respectTransparency.types false in
/-- Every weakly fair execution of @main terminates, every array of the pipeline ends at what the library computes
    from the proof data, and every other unscoped buffer as the region found it. -/
theorem run_main (hrows : RowsOnly m) :
    θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m hrows c) (hshare := fun c => (dats m 0 c).share_full fun _ => rfl)
    (howed := fun _ _ => rfl) (V := V m) (hmain := hmain m Variants.none) (hA := A_eq m) (hΦ := fun _ _ => rfl)

/-- The frame: the argument arrays end as launched. -/
theorem frame (hrows : RowsOnly m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ hrows)

end Cert.KernelIdeal.Hand

end
-- ==== Proof.KPayload.lean ====
/-
  The joiner kernel's arithmetic read at one entry of the result block. The body projects the frame block's rows and
  the position block's rows through their two weight matrices (each product is a contraction over the 512 features,
  plus a bias row), adds the two projections over every pair (row, position), and contracts the sum with the rows of
  the vocabulary matrix, plus the vocabulary bias. Read at row `r`, position `u`, vocabulary entry `v`, what the body
  stores is that double sum: one small lemma per stage (a product into a zero accumulator at an index, a bias row
  spread over the rows, a projection spread over the other axis, the row-major regrouping of (row, position) into one
  axis and back), then their composition.
-/
import proofs.«132632_j6803228197541_1_alg».proof.Proof.KBody
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## A product into a zero accumulator, read at an index

Each of the body's three products contracts axis 1 of both operands: entry `(p, q)` of the product is the sum over `k`
of the left operand at `(p, k)` times the right at `(q, k)`. The contraction index is re-indexed by its one coordinate;
the four axis facts say which coordinate of the result index or of the contraction index each operand axis reads. -/

section FrameProjection

theorem encDot_lhs_0 (i : S128x512.Idx) (c : dot_S128x512_S512x512_S128x512_1_1_0_0_n_n.contr.Idx) :
    (dot_S128x512_S512x512_S128x512_1_1_0_0_n_n.lhsIdx i c 0).val = (i 0).val := by
  unfold DotDims.lhsIdx
  rw [dif_neg (show ¬(0 : Fin S128x512.rank) ∈ dot_S128x512_S512x512_S128x512_1_1_0_0_n_n.lhsBatch by decide), dif_pos (show (0 : Fin S128x512.rank) ∈ dot_S128x512_S512x512_S128x512_1_1_0_0_n_n.lhsNonContracting by decide)]
  rfl
theorem encDot_lhs_1 (i : S128x512.Idx) (c : dot_S128x512_S512x512_S128x512_1_1_0_0_n_n.contr.Idx) :
    (dot_S128x512_S512x512_S128x512_1_1_0_0_n_n.lhsIdx i c 1).val = (c ⟨0, by decide⟩).val :=
  dot_S128x512_S512x512_S128x512_1_1_0_0_n_n.lhsIdx_val_of_single rfl i c
theorem encDot_rhs_0 (i : S128x512.Idx) (c : dot_S128x512_S512x512_S128x512_1_1_0_0_n_n.contr.Idx) :
    (dot_S128x512_S512x512_S128x512_1_1_0_0_n_n.rhsIdx i c 0).val = (i 1).val := by
  unfold DotDims.rhsIdx
  rw [dif_neg (show ¬(0 : Fin S512x512.rank) ∈ dot_S128x512_S512x512_S128x512_1_1_0_0_n_n.rhsBatch by decide), dif_pos (show (0 : Fin S512x512.rank) ∈ dot_S128x512_S512x512_S128x512_1_1_0_0_n_n.rhsNonContracting by decide)]
  rfl
theorem encDot_rhs_1 (i : S128x512.Idx) (c : dot_S128x512_S512x512_S128x512_1_1_0_0_n_n.contr.Idx) :
    (dot_S128x512_S512x512_S128x512_1_1_0_0_n_n.rhsIdx i c 1).val = (c ⟨0, by decide⟩).val :=
  dot_S128x512_S512x512_S128x512_1_1_0_0_n_n.rhsIdx_val_of_single rfl i c

/-- The frame block's projection: entry `(p, q)` is row `p` of the block against row `q` of the weights. -/
theorem encDot_apply (a : FVec Ideal S128x512 .bf16) (w : FVec Ideal S512x512 .bf16) (p : Fin 128) (q : Fin 512) :
    matmul (F := Ideal) dot_S128x512_S512x512_S128x512_1_1_0_0_n_n none a w (constant (F := Ideal) S128x512 .f32 0x00000000#32) (ix2 p q)
      = ∑ k : Fin 512, a (ix2 p k) * w (ix2 q k) := by
  refine (Ideal.matmul_constant_zero_apply dot_S128x512_S512x512_S128x512_1_1_0_0_n_n none a w (ix2 p q)).trans ?_
  rw [← Equiv.sum_comp (ValueIdx.contrEquiv1 dot_S128x512_S512x512_S128x512_1_1_0_0_n_n 512 rfl rfl).symm]
  refine Finset.sum_congr rfl fun k _ => ?_
  have hk := ValueIdx.contrEquiv1_symm_val dot_S128x512_S512x512_S128x512_1_1_0_0_n_n 512 rfl rfl k
  have el : dot_S128x512_S512x512_S128x512_1_1_0_0_n_n.lhsIdx (ix2 p q) ((ValueIdx.contrEquiv1 dot_S128x512_S512x512_S128x512_1_1_0_0_n_n 512 rfl rfl).symm k) = ix2 p k := funext fun ax => Fin.ext (by
    match ax with
    | ⟨0, _⟩ => exact encDot_lhs_0 _ _
    | ⟨1, _⟩ => exact (encDot_lhs_1 _ _).trans hk)
  have er : dot_S128x512_S512x512_S128x512_1_1_0_0_n_n.rhsIdx (ix2 p q) ((ValueIdx.contrEquiv1 dot_S128x512_S512x512_S128x512_1_1_0_0_n_n 512 rfl rfl).symm k) = ix2 q k := funext fun ax => Fin.ext (by
    match ax with
    | ⟨0, _⟩ => exact encDot_rhs_0 _ _
    | ⟨1, _⟩ => exact (encDot_rhs_1 _ _).trans hk)
  rw [el, er]

end FrameProjection

section PositionProjection

theorem decDot_lhs_0 (i : S30x512.Idx) (c : dot_S30x512_S512x512_S30x512_1_1_0_0_n_n.contr.Idx) :
    (dot_S30x512_S512x512_S30x512_1_1_0_0_n_n.lhsIdx i c 0).val = (i 0).val := by
  unfold DotDims.lhsIdx
  rw [dif_neg (show ¬(0 : Fin S30x512.rank) ∈ dot_S30x512_S512x512_S30x512_1_1_0_0_n_n.lhsBatch by decide), dif_pos (show (0 : Fin S30x512.rank) ∈ dot_S30x512_S512x512_S30x512_1_1_0_0_n_n.lhsNonContracting by decide)]
  rfl
theorem decDot_lhs_1 (i : S30x512.Idx) (c : dot_S30x512_S512x512_S30x512_1_1_0_0_n_n.contr.Idx) :
    (dot_S30x512_S512x512_S30x512_1_1_0_0_n_n.lhsIdx i c 1).val = (c ⟨0, by decide⟩).val :=
  dot_S30x512_S512x512_S30x512_1_1_0_0_n_n.lhsIdx_val_of_single rfl i c
theorem decDot_rhs_0 (i : S30x512.Idx) (c : dot_S30x512_S512x512_S30x512_1_1_0_0_n_n.contr.Idx) :
    (dot_S30x512_S512x512_S30x512_1_1_0_0_n_n.rhsIdx i c 0).val = (i 1).val := by
  unfold DotDims.rhsIdx
  rw [dif_neg (show ¬(0 : Fin S512x512.rank) ∈ dot_S30x512_S512x512_S30x512_1_1_0_0_n_n.rhsBatch by decide), dif_pos (show (0 : Fin S512x512.rank) ∈ dot_S30x512_S512x512_S30x512_1_1_0_0_n_n.rhsNonContracting by decide)]
  rfl
theorem decDot_rhs_1 (i : S30x512.Idx) (c : dot_S30x512_S512x512_S30x512_1_1_0_0_n_n.contr.Idx) :
    (dot_S30x512_S512x512_S30x512_1_1_0_0_n_n.rhsIdx i c 1).val = (c ⟨0, by decide⟩).val :=
  dot_S30x512_S512x512_S30x512_1_1_0_0_n_n.rhsIdx_val_of_single rfl i c

/-- The position block's projection: entry `(p, q)` is row `p` of the block against row `q` of the weights. -/
theorem decDot_apply (a : FVec Ideal S30x512 .bf16) (w : FVec Ideal S512x512 .bf16) (p : Fin 30) (q : Fin 512) :
    matmul (F := Ideal) dot_S30x512_S512x512_S30x512_1_1_0_0_n_n none a w (constant (F := Ideal) S30x512 .f32 0x00000000#32) (ix2 p q)
      = ∑ k : Fin 512, a (ix2 p k) * w (ix2 q k) := by
  refine (Ideal.matmul_constant_zero_apply dot_S30x512_S512x512_S30x512_1_1_0_0_n_n none a w (ix2 p q)).trans ?_
  rw [← Equiv.sum_comp (ValueIdx.contrEquiv1 dot_S30x512_S512x512_S30x512_1_1_0_0_n_n 512 rfl rfl).symm]
  refine Finset.sum_congr rfl fun k _ => ?_
  have hk := ValueIdx.contrEquiv1_symm_val dot_S30x512_S512x512_S30x512_1_1_0_0_n_n 512 rfl rfl k
  have el : dot_S30x512_S512x512_S30x512_1_1_0_0_n_n.lhsIdx (ix2 p q) ((ValueIdx.contrEquiv1 dot_S30x512_S512x512_S30x512_1_1_0_0_n_n 512 rfl rfl).symm k) = ix2 p k := funext fun ax => Fin.ext (by
    match ax with
    | ⟨0, _⟩ => exact decDot_lhs_0 _ _
    | ⟨1, _⟩ => exact (decDot_lhs_1 _ _).trans hk)
  have er : dot_S30x512_S512x512_S30x512_1_1_0_0_n_n.rhsIdx (ix2 p q) ((ValueIdx.contrEquiv1 dot_S30x512_S512x512_S30x512_1_1_0_0_n_n 512 rfl rfl).symm k) = ix2 q k := funext fun ax => Fin.ext (by
    match ax with
    | ⟨0, _⟩ => exact decDot_rhs_0 _ _
    | ⟨1, _⟩ => exact (decDot_rhs_1 _ _).trans hk)
  rw [el, er]

end PositionProjection

section VocabularyProduct

theorem vocDot_lhs_0 (i : S3840x500.Idx) (c : dot_S3840x512_S500x512_S3840x500_1_1_0_0_n_n.contr.Idx) :
    (dot_S3840x512_S500x512_S3840x500_1_1_0_0_n_n.lhsIdx i c 0).val = (i 0).val := by
  unfold DotDims.lhsIdx
  rw [dif_neg (show ¬(0 : Fin S3840x512.rank) ∈ dot_S3840x512_S500x512_S3840x500_1_1_0_0_n_n.lhsBatch by decide), dif_pos (show (0 : Fin S3840x512.rank) ∈ dot_S3840x512_S500x512_S3840x500_1_1_0_0_n_n.lhsNonContracting by decide)]
  rfl
theorem vocDot_lhs_1 (i : S3840x500.Idx) (c : dot_S3840x512_S500x512_S3840x500_1_1_0_0_n_n.contr.Idx) :
    (dot_S3840x512_S500x512_S3840x500_1_1_0_0_n_n.lhsIdx i c 1).val = (c ⟨0, by decide⟩).val :=
  dot_S3840x512_S500x512_S3840x500_1_1_0_0_n_n.lhsIdx_val_of_single rfl i c
theorem vocDot_rhs_0 (i : S3840x500.Idx) (c : dot_S3840x512_S500x512_S3840x500_1_1_0_0_n_n.contr.Idx) :
    (dot_S3840x512_S500x512_S3840x500_1_1_0_0_n_n.rhsIdx i c 0).val = (i 1).val := by
  unfold DotDims.rhsIdx
  rw [dif_neg (show ¬(0 : Fin S500x512.rank) ∈ dot_S3840x512_S500x512_S3840x500_1_1_0_0_n_n.rhsBatch by decide), dif_pos (show (0 : Fin S500x512.rank) ∈ dot_S3840x512_S500x512_S3840x500_1_1_0_0_n_n.rhsNonContracting by decide)]
  rfl
theorem vocDot_rhs_1 (i : S3840x500.Idx) (c : dot_S3840x512_S500x512_S3840x500_1_1_0_0_n_n.contr.Idx) :
    (dot_S3840x512_S500x512_S3840x500_1_1_0_0_n_n.rhsIdx i c 1).val = (c ⟨0, by decide⟩).val :=
  dot_S3840x512_S500x512_S3840x500_1_1_0_0_n_n.rhsIdx_val_of_single rfl i c

/-- The product with the vocabulary matrix: entry `(m, v)` is row `m` of the summed projections against row `v` of
    the matrix. -/
theorem vocDot_apply (a : FVec Ideal S3840x512 .bf16) (w : FVec Ideal S500x512 .bf16) (m : Fin 3840) (v : Fin 500) :
    matmul (F := Ideal) dot_S3840x512_S500x512_S3840x500_1_1_0_0_n_n none a w (constant (F := Ideal) S3840x500 .f32 0x00000000#32) (ix2 m v)
      = ∑ k : Fin 512, a (ix2 m k) * w (ix2 v k) := by
  refine (Ideal.matmul_constant_zero_apply dot_S3840x512_S500x512_S3840x500_1_1_0_0_n_n none a w (ix2 m v)).trans ?_
  rw [← Equiv.sum_comp (ValueIdx.contrEquiv1 dot_S3840x512_S500x512_S3840x500_1_1_0_0_n_n 512 rfl rfl).symm]
  refine Finset.sum_congr rfl fun k _ => ?_
  have hk := ValueIdx.contrEquiv1_symm_val dot_S3840x512_S500x512_S3840x500_1_1_0_0_n_n 512 rfl rfl k
  have el : dot_S3840x512_S500x512_S3840x500_1_1_0_0_n_n.lhsIdx (ix2 m v) ((ValueIdx.contrEquiv1 dot_S3840x512_S500x512_S3840x500_1_1_0_0_n_n 512 rfl rfl).symm k) = ix2 m k := funext fun ax => Fin.ext (by
    match ax with
    | ⟨0, _⟩ => exact vocDot_lhs_0 _ _
    | ⟨1, _⟩ => exact (vocDot_lhs_1 _ _).trans hk)
  have er : dot_S3840x512_S500x512_S3840x500_1_1_0_0_n_n.rhsIdx (ix2 m v) ((ValueIdx.contrEquiv1 dot_S3840x512_S500x512_S3840x500_1_1_0_0_n_n 512 rfl rfl).symm k) = ix2 v k := funext fun ax => Fin.ext (by
    match ax with
    | ⟨0, _⟩ => exact vocDot_rhs_0 _ _
    | ⟨1, _⟩ => exact (vocDot_rhs_1 _ _).trans hk)
  rw [el, er]

end VocabularyProduct

/-! ## The layout operations, read at an index -/

section Layout
variable {α : Type}

/-- A `[a, b]` array cast to `[a, 1, b]` reads, at `(i, u, j)`, the operand at `(i, j)`: both have row-major position
    `i * b + j`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, s, j)`, the operand's one entry `(i, 0, j)` along the
    middle axis. -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (s : Fin c) (j : Fin b) :
    broadcastTo ⟨3, ![a, c, b]⟩ x h (ix3 i s j) = x (ix3 i (0 : Fin 1) j) := by
  refine broadcastTo_apply x h (ix3 i s j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, s, j)`, the operand's one slab at `(0, s, j)`. -/
theorem broadcastTo_1cb_acb_apply {a b c : ℕ} (x : (⟨3, ![1, c, b]⟩ : Shape).Idx → α)
    (h : (⟨3, ![1, c, b]⟩ : Shape).Broadcasts ⟨3, ![a, c, b]⟩) (i : Fin a) (s : Fin c) (j : Fin b) :
    broadcastTo ⟨3, ![a, c, b]⟩ x h (ix3 i s j) = x (ix3 (0 : Fin 1) s j) := by
  refine broadcastTo_apply x h (ix3 i s j) (ix3 (0 : Fin 1) s j) fun ax => ?_
  match ax with
  | ⟨0, _⟩ => rfl
  | ⟨1, _⟩ =>
    show s.val = if c = 1 then 0 else s.val
    split
    · have := s.isLt; omega
    · rfl
  | ⟨2, _⟩ =>
    show j.val = if b = 1 then 0 else j.val
    split
    · have := j.isLt; omega
    · rfl

/-- The pairs (row, position) regrouped into one axis, row-major: row `m = 30 p + s` of the `[3840, 512]` array is
    entry `(p, s)` of the `[128, 30, 512]` one. -/
theorem shapeCast_pairs_flat_apply (x : S128x30x512.Idx → α) (h : S128x30x512.ShapeCasts S3840x512)
    (p : Fin 128) (s : Fin 30) (q : Fin 512) (m : Fin 3840) (hm : m.val = 30 * p.val + s.val) :
    shapeCast S3840x512 x h (ix2 m q) = x (ix3 p s q) :=
  shapeCast_apply x h _ _ (by
    rw [Shape.rowMajor_val_three, Shape.rowMajor_val_two]
    show (p.val * 30 + s.val) * 512 + q.val = m.val * 512 + q.val
    rw [hm, Nat.mul_comm 30 p.val])

/-- And back: entry `(p, s)` of the `[128, 30, 500]` array is row `m = 30 p + s` of the `[3840, 500]` one. -/
theorem shapeCast_flat_pairs_apply (x : S3840x500.Idx → α) (h : S3840x500.ShapeCasts S128x30x500)
    (p : Fin 128) (s : Fin 30) (q : Fin 500) (m : Fin 3840) (hm : m.val = 30 * p.val + s.val) :
    shapeCast S128x30x500 x h (ix3 p s q) = x (ix2 m q) :=
  shapeCast_apply x h _ _ (by
    rw [Shape.rowMajor_val_three, Shape.rowMajor_val_two]
    show m.val * 500 + q.val = (p.val * 30 + s.val) * 500 + q.val
    rw [hm, Nat.mul_comm 30 p.val])

end Layout

/-! ## The stages of the body's arithmetic -/

section Stages

/-- A bias vector made one row and spread over `a` rows reads, at `(p, q)`, the bias at `q`. -/
theorem biasRows_apply {α : Type} {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ x hc) hb (ix2 p q) = x (ix1 q) :=
  (broadcastTo_1b_ab_apply _ hb p q).trans (shapeCast_a_1a_apply x hc 0 q)

/-- The frame block's projection with its bias, at row `p` and feature `q`: the block's leading unit axis is dropped,
    the operands are taken as they are (narrowing to bf16 is the identity on the ideal values). -/
theorem encProj_apply (v0 : Vec Ideal S1x128x512 .f32) (v6 : Vec Ideal S512x512 .f32) (v12 : Vec Ideal S512 .f32)
    (h0 : S1x128x512.ShapeCasts S128x512) (hlt : FTy.bits .bf16 < FTy.bits .f32)
    (hc : S512.ShapeCasts S1x512) (hb : S1x512.Broadcasts S128x512) (p : Fin 128) (q : Fin 512) :
    addf (matmul (F := Ideal) dot_S128x512_S512x512_S128x512_1_1_0_0_n_n none
        (truncf .bf16 (shapeCast S128x512 v0 h0) hlt) (truncf .bf16 v6 hlt) (constant (F := Ideal) S128x512 .f32 0x00000000#32))
      (broadcastTo S128x512 (shapeCast S1x512 v12 hc) hb) (ix2 p q)
      = (∑ d : Fin 512, v0 (ix3 (0 : Fin 1) p d) * v6 (ix2 q d)) + v12 (ix1 q) := by
  refine (addf_apply _ _ _).trans (congrArg₂ (· + ·) ?_ (biasRows_apply v12 hc hb p q))
  refine (encDot_apply _ _ p q).trans (Finset.sum_congr rfl fun d _ => ?_)
  exact congrArg (· * v6 (ix2 q d)) (shapeCast_1ab_ab_apply v0 h0 p d)

/-- The position block's projection with its bias, at position `s` and feature `q`. -/
theorem decProj_apply (v3 : Vec Ideal S1x30x512 .f32) (v8 : Vec Ideal S512x512 .f32) (v13 : Vec Ideal S512 .f32)
    (h0 : S1x30x512.ShapeCasts S30x512) (hlt : FTy.bits .bf16 < FTy.bits .f32)
    (hc : S512.ShapeCasts S1x512) (hb : S1x512.Broadcasts S30x512) (s : Fin 30) (q : Fin 512) :
    addf (matmul (F := Ideal) dot_S30x512_S512x512_S30x512_1_1_0_0_n_n none
        (truncf .bf16 (shapeCast S30x512 v3 h0) hlt) (truncf .bf16 v8 hlt) (constant (F := Ideal) S30x512 .f32 0x00000000#32))
      (broadcastTo S30x512 (shapeCast S1x512 v13 hc) hb) (ix2 s q)
      = (∑ d : Fin 512, v3 (ix3 (0 : Fin 1) s d) * v8 (ix2 q d)) + v13 (ix1 q) := by
  refine (addf_apply _ _ _).trans (congrArg₂ (· + ·) ?_ (biasRows_apply v13 hc hb s q))
  refine (decDot_apply _ _ s q).trans (Finset.sum_congr rfl fun d _ => ?_)
  exact congrArg (· * v8 (ix2 q d)) (shapeCast_1ab_ab_apply v3 h0 s d)

/-- The two projections added over every pair (row, position): the rows' projection is spread along the positions,
    the positions' along the rows. -/
theorem pairSum_apply (A : FVec Ideal S128x512 .f32) (B : FVec Ideal S30x512 .f32)
    (hA : S128x512.ShapeCasts S128x1x512) (hA' : S128x1x512.Broadcasts S128x30x512)
    (hB : S30x512.ShapeCasts S1x30x512) (hB' : S1x30x512.Broadcasts S128x30x512) (p : Fin 128) (s : Fin 30) (q : Fin 512) :
    addf (broadcastTo S128x30x512 (shapeCast S128x1x512 A hA) hA') (broadcastTo S128x30x512 (shapeCast S1x30x512 B hB) hB') (ix3 p s q)
      = A (ix2 p q) + B (ix2 s q) := by
  refine (addf_apply _ _ _).trans (congrArg₂ (· + ·) ?_ ?_)
  · exact (broadcastTo_a1b_acb_apply _ hA' p s q).trans (shapeCast_ab_a1b_apply A hA p 0 q)
  · exact (broadcastTo_1cb_acb_apply _ hB' p s q).trans (shapeCast_ab_1ab_apply B hB 0 s q)

/-- The last stage: the pairs regrouped into rows, contracted with the vocabulary matrix, the vocabulary bias added,
    the rows regrouped into pairs and a leading unit axis put in front. At `(0, r, u, v)` it reads the sum over the
    features of the summed projections at `(r, u, ·)` against row `v` of the matrix, plus the bias at `v`. -/
theorem vocStage_apply (C : FVec Ideal S128x30x512 .f32) (v10 : Vec Ideal S500x512 .f32) (v14 : Vec Ideal S500 .f32)
    (hlt : FTy.bits .bf16 < FTy.bits .f32) (hf : S128x30x512.ShapeCasts S3840x512)
    (hc : S500.ShapeCasts S1x500) (hb : S1x500.Broadcasts S3840x500)
    (hp : S3840x500.ShapeCasts S128x30x500) (h1 : S128x30x500.ShapeCasts S1x128x30x500)
    (r : Fin 128) (u : Fin 30) (v : Fin 500) :
    shapeCast S1x128x30x500
        (shapeCast S128x30x500
          (addf (matmul (F := Ideal) dot_S3840x512_S500x512_S3840x500_1_1_0_0_n_n none
              (shapeCast S3840x512 (truncf .bf16 C hlt) hf) (truncf .bf16 v10 hlt) (constant (F := Ideal) S3840x500 .f32 0x00000000#32))
            (broadcastTo S3840x500 (shapeCast S1x500 v14 hc) hb)) hp) h1 (ix4 (0 : Fin 1) r u v)
      = (∑ j : Fin 512, C (ix3 r u j) * v10 (ix2 v j)) + v14 (ix1 v) := by
  have hm : 30 * r.val + u.val < 3840 := by have := r.isLt; have := u.isLt; omega
  refine (shapeCast_abc_1abc_apply _ h1 0 r u v).trans ?_
  refine (shapeCast_flat_pairs_apply _ hp r u v ⟨30 * r.val + u.val, hm⟩ rfl).trans ?_
  refine (addf_apply _ _ _).trans (congrArg₂ (· + ·) ?_ (biasRows_apply v14 hc hb _ v))
  refine (vocDot_apply _ _ _ v).trans (Finset.sum_congr rfl fun j _ => ?_)
  exact congrArg (· * v10 (ix2 v j)) (shapeCast_pairs_flat_apply (truncf .bf16 C hlt) hf r u j ⟨30 * r.val + u.val, hm⟩ rfl)

end Stages

/-! ## The stored block at an entry -/

section Assembly

/-- The body's arithmetic over what its eight loads read, at entry `(0, r, u, v)`: the stages composed, outermost
    first. -/
theorem pay_apply (v0 : Vec Ideal S1x128x512 .f32) (v3 : Vec Ideal S1x30x512 .f32) (v6 v8 : Vec Ideal S512x512 .f32)
    (v10 : Vec Ideal S500x512 .f32) (v12 v13 : Vec Ideal S512 .f32) (v14 : Vec Ideal S500 .f32)
    (r : Fin 128) (u : Fin 30) (v : Fin 500) :
    k0_pay1 (F := Ideal) (k0_pay2 (F := Ideal) v0 v3 v6 v8 v10 v12 v13 v14) (ix4 (0 : Fin 1) r u v)
      = (∑ j : Fin 512, (((∑ d : Fin 512, v0 (ix3 (0 : Fin 1) r d) * v6 (ix2 j d)) + v12 (ix1 j))
            + ((∑ d : Fin 512, v3 (ix3 (0 : Fin 1) u d) * v8 (ix2 j d)) + v13 (ix1 j))) * v10 (ix2 v j)) + v14 (ix1 v) := by
  unfold k0_pay1 k0_pay2
  refine (vocStage_apply _ v10 v14 _ _ _ _ _ _ r u v).trans ?_
  refine congrArg (· + v14 (ix1 v)) (Finset.sum_congr rfl fun j _ => ?_)
  refine congrArg (· * v10 (ix2 v j)) ?_
  refine (pairSum_apply _ _ _ _ _ _ r u j).trans (congrArg₂ (· + ·) ?_ ?_)
  · exact encProj_apply v0 v6 v12 _ _ _ _ r j
  · exact decProj_apply v3 v8 v13 _ _ _ _ u j

/-- What the body leaves in the result's buffer, at row `r` of the frame block, position `u`, vocabulary entry `v`:
    the frame projection of row `r` plus the position projection of `u`, contracted with row `v` of the vocabulary
    matrix, plus the vocabulary bias. Every access of the body is its whole buffer, so the loads read the buffers'
    contents and the one store leaves its payload. -/
theorem outBlk_apply (x0 : Vec Ideal S1x128x512 .f32) (x1 : Vec Ideal S1x30x512 .f32) (x2 : Vec Ideal S512x512 .f32) (x3 : Vec Ideal S512 .f32)
    (x4 : Vec Ideal S512x512 .f32) (x5 : Vec Ideal S512 .f32) (x6 : Vec Ideal S500x512 .f32) (x7 : Vec Ideal S500 .f32)
    (r : Fin 128) (u : Fin 30) (v : Fin 500) :
    outBlk (F := Ideal) x0 x1 x2 x3 x4 x5 x6 x7 (ix4 (0 : Fin 1) r u v)
      = (∑ j : Fin 512, (((∑ d : Fin 512, x0 (ix3 (0 : Fin 1) r d) * x2 (ix2 j d)) + x3 (ix1 j))
            + ((∑ d : Fin 512, x1 (ix3 (0 : Fin 1) u d) * x4 (ix2 j d)) + x5 (ix1 j))) * x6 (ix2 v j)) + x7 (ix1 v) := by
  have hz4 : (![0, 0, 0, 0] : Fin 4 → Nat) = fun _ => 0 := funext fun a => by
    match a with | ⟨0, _⟩ => rfl | ⟨1, _⟩ => rfl | ⟨2, _⟩ => rfl | ⟨3, _⟩ => rfl
  have hz3 : (![0, 0, 0] : Fin 3 → Nat) = fun _ => 0 := funext fun a => by
    match a with | ⟨0, _⟩ => rfl | ⟨1, _⟩ => rfl | ⟨2, _⟩ => rfl
  have hz2 : (![0, 0] : Fin 2 → Nat) = fun _ => 0 := funext fun a => by
    match a with | ⟨0, _⟩ => rfl | ⟨1, _⟩ => rfl
  have hz1 : (![0] : Fin 1 → Nat) = fun _ => 0 := funext fun a => by
    match a with | ⟨0, _⟩ => rfl
  unfold outBlk
  rw [View.canon_unit_zero hz4]
  simp only [View.ld_unit_zero (S := S1x128x512) hz3, View.ld_unit_zero (S := S1x30x512) hz3,
    View.ld_unit_zero (S := S512x512) hz2, View.ld_unit_zero (S := S512) hz1,
    View.ld_unit_zero (S := S500x512) hz2, View.ld_unit_zero (S := S500) hz1]
  exact pay_apply x0 x1 x2 x4 x6 x3 x5 x7 r u v

end Assembly

end Cert.KernelIdeal.Hand

end
-- ==== Proof.Spec.lean ====
/-
  The joiner's logits as ONE function of the eight argument arrays, index by index, over the extended reals.

  For a batch entry `b`, an encoder frame `t`, a decoder position `u` and a vocabulary entry `v`:
    encoder projection  e(b,t,j) = Σ_d x(b,t,d) · We(j,d) + be(j)
    decoder projection  p(b,u,j) = Σ_d y(b,u,d) · Wd(j,d) + bd(j)
    logits              L(b,t,u,v) = Σ_j (e(b,t,j) + p(b,u,j)) · Wo(v,j) + bo(v).
  Both programs compute exactly this expression tree (two contractions over the feature axis, a broadcast sum over the
  frame and position axes, a contraction over the joint axis, three bias additions), so no algebraic law beyond
  reading each operation at an index is needed, and finiteness of the inputs is never used.
-/
import Idealize.ShloMosaic.PureOps.Ideal
import Idealize.ShloMosaic.Lib.ValueIdx

noncomputable section

open scoped BigOperators

namespace Cert.Joiner

open Idealize.ShloMosaic Idealize.ShloMosaic.ValueIdx

/-- The encoder projection at frame `(b, t)` and joint feature `j`: the feature-axis contraction plus its bias. -/
def encProj (x : (⟨3, ![16, 300, 512]⟩ : Shape).Idx → EReal) (We : (⟨2, ![512, 512]⟩ : Shape).Idx → EReal)
    (be : (⟨1, ![512]⟩ : Shape).Idx → EReal) (b : Fin 16) (t : Fin 300) (j : Fin 512) : EReal :=
  (∑ d : Fin 512, x (ix3 b t d) * We (ix2 j d)) + be (ix1 j)

/-- The decoder projection at position `(b, u)` and joint feature `j`. -/
def decProj (y : (⟨3, ![16, 30, 512]⟩ : Shape).Idx → EReal) (Wd : (⟨2, ![512, 512]⟩ : Shape).Idx → EReal)
    (bd : (⟨1, ![512]⟩ : Shape).Idx → EReal) (b : Fin 16) (u : Fin 30) (j : Fin 512) : EReal :=
  (∑ d : Fin 512, y (ix3 b u d) * Wd (ix2 j d)) + bd (ix1 j)

/-- The logits: the joint-axis contraction of the broadcast sum of the two projections with the vocabulary
    matrix, plus the vocabulary bias. -/
def logits (x : (⟨3, ![16, 300, 512]⟩ : Shape).Idx → EReal) (y : (⟨3, ![16, 30, 512]⟩ : Shape).Idx → EReal)
    (We : (⟨2, ![512, 512]⟩ : Shape).Idx → EReal) (be : (⟨1, ![512]⟩ : Shape).Idx → EReal)
    (Wd : (⟨2, ![512, 512]⟩ : Shape).Idx → EReal) (bd : (⟨1, ![512]⟩ : Shape).Idx → EReal)
    (Wo : (⟨2, ![500, 512]⟩ : Shape).Idx → EReal) (bo : (⟨1, ![500]⟩ : Shape).Idx → EReal) :
    (⟨4, ![16, 300, 30, 500]⟩ : Shape).Idx → EReal :=
  fun i => (∑ j : Fin 512, (encProj x We be (i 0) (i 1) j + decProj y Wd bd (i 0) (i 2) j) * Wo (ix2 (i 3) j)) + bo (ix1 (i 3))

end Cert.Joiner

end
-- ==== Proof.KValue.lean ====
/-
  The idealized kernel's result array is the joiner's logits of the argument arrays.

  Point `t` of the 16 × 3 grid is batch entry `t / 3` and frame block `t % 3`. An entry of the result block the body
  computes — row `r`, position `u`, vocabulary entry `v` — is the logit's expression over row `r` of the frame block,
  position `u` of the position block and the weights; where row `r` lies inside the array (every row of frame
  blocks 0 and 1, the first 44 of frame block 2) the frame block's row is the array's row `128 · (t % 3) + r` whatever
  fills the buffer past the array's end, so the entry is the logit at `(t / 3, 128 · (t % 3) + r, u, v)`. Those are
  exactly the rows a point writes back, and the 48 blocks written back tile the result: it ends at the logits.
-/
import proofs.«132632_j6803228197541_1_alg».proof.Proof.KFrame
import proofs.«132632_j6803228197541_1_alg».proof.Proof.KPayload
import proofs.«132632_j6803228197541_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The printed index maps and cuts, decided over the grid -/

/-- Point `t` of the grid is batch entry `t / 3` and frame block `t % 3`: the frame window and the result window
    move together along both; the position window moves with the batch entry alone; the weights and biases do not
    move. The frame window's and the result window's blocks are cut alike along the frame axis: at the array's
    end (frame block 2 keeps 44 of its 128 rows), and nowhere else. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0
    ∧ win0_8.index t (2 : Fin 4) = 0 ∧ win0_8.index t (3 : Fin 4) = 0
    ∧ win0_8.index t (0 : Fin 4) ≤ 15 ∧ win0_8.index t (1 : Fin 4) ≤ 2 :=
  (by decide +kernel : ∀ t : Fin grid0.N, _)

theorem cut_facts : ∀ t : Fin cfg0.N,
    win0_0.xsize (grid0.coords t) (0 : Fin 3) = 1 ∧ win0_0.xsize (grid0.coords t) (2 : Fin 3) = 512
    ∧ win0_0.xsize (grid0.coords t) (1 : Fin 3) = win0_8.xsize (grid0.coords t) (1 : Fin 4)
    ∧ win0_8.xsize (grid0.coords t) (0 : Fin 4) = 1 ∧ win0_8.xsize (grid0.coords t) (2 : Fin 4) = 30
    ∧ win0_8.xsize (grid0.coords t) (3 : Fin 4) = 500
    ∧ win0_8.index t (1 : Fin 4) * 128 + win0_8.xsize (grid0.coords t) (1 : Fin 4) = min 300 (win0_8.index t (1 : Fin 4) * 128 + 128) :=
  (by decide +kernel : ∀ t : Fin grid0.N, _)

/-- Every (batch entry, frame block) pair is some point's. -/
theorem idx_onto : ∀ (q0 : Fin 16) (q1 : Fin 3), ∃ t : Fin cfg0.N, win0_8.index t = ![q0.val, q1.val, 0, 0] :=
  (by decide +kernel : ∀ (q0 : Fin 16) (q1 : Fin 3), ∃ t : Fin grid0.N, win0_8.index t = ![q0.val, q1.val, 0, 0])

/-! ## The blocks read back: each window's block at a point, entry by entry, is its array's -/

variable {m}

/-- The batch entry and the frame of row `r` of point `t`'s block, as indices of the arrays. -/
theorem batch_lt (t : Fin cfg0.N) : win0_8.index t (0 : Fin 4) < 16 := by
  have := (idx_facts t).2.2.2.2.2.2.2.2.2.2.2.2.2.2.2.2.2.1; omega
theorem frame_lt (t : Fin cfg0.N) (r : Fin 128) (hr : r.val < win0_8.xsize (grid0.coords t) (1 : Fin 4)) :
    win0_8.index t (1 : Fin 4) * 128 + r.val < 300 := by
  have := (cut_facts t).2.2.2.2.2.2; omega

variable (m)

/-- Whatever fills the frame buffer past the array's end, a row inside the array is the array's row: batch entry
    `t / 3`, frame `128 · (t % 3) + r`. -/
theorem fill_row (c : Dev nD) (t : Fin cfg0.N) (dd : Vec Ideal S1x128x512 .f32) (r : Fin 128) (d : Fin 512)
    (hr : r.val < win0_8.xsize (grid0.coords t) (1 : Fin 4)) :
    win0_0.fill (grid0.coords t) dd (iblk m c 0 t) (ix3 (0 : Fin 1) r d)
      = V m c main_arg0 (ix3 (⟨win0_8.index t (0 : Fin 4), batch_lt t⟩ : Fin 16)
          (⟨win0_8.index t (1 : Fin 4) * 128 + r.val, frame_lt t r hr⟩ : Fin 300) d) := by
  obtain ⟨c0, c1, c2, -⟩ := cut_facts t
  obtain ⟨e0, e1, e2, -⟩ := idx_facts t
  have hr0 : r.val < win0_0.xsize (grid0.coords t) (1 : Fin 3) := by rw [c2]; exact hr
  let y0 : (win0_0.xblock (grid0.coords t)).Idx := fun a => match a with
    | ⟨0, _⟩ => ⟨0, by show 0 < win0_0.xsize (grid0.coords t) (0 : Fin 3); rw [c0]; exact Nat.one_pos⟩
    | ⟨1, _⟩ => ⟨r.val, hr0⟩
    | ⟨2, _⟩ => ⟨d.val, by show d.val < win0_0.xsize (grid0.coords t) (2 : Fin 3); rw [c1]; exact d.isLt⟩
  have hx : (ix3 (0 : Fin 1) r d : S1x128x512.Idx) = win0_0.xinj (grid0.coords t) y0 :=
    funext fun a => Fin.ext (by match a with | ⟨0, _⟩ => rfl | ⟨1, _⟩ => rfl | ⟨2, _⟩ => rfl)
  rw [hx, win0_0.fill_xinj]
  show V m c main_arg0 (((cfg0.win 0).blk t).view.emb y0) = _
  congr 1
  funext a; apply Fin.ext
  match a with
  | ⟨0, _⟩ => show win0_0.index t (0 : Fin 3) * 1 + 1 * 0 = win0_8.index t (0 : Fin 4); omega
  | ⟨1, _⟩ => show win0_0.index t (1 : Fin 3) * 128 + 1 * r.val = win0_8.index t (1 : Fin 4) * 128 + r.val; omega
  | ⟨2, _⟩ => show win0_0.index t (2 : Fin 3) * 512 + 1 * d.val = d.val; omega

/-- The position block at point `t` is batch entry `t / 3`'s positions. -/
theorem read_dec (c : Dev nD) (t : Fin cfg0.N) (u : Fin 30) (d : Fin 512) :
    (iblk m c 1 t : Vec Ideal S1x30x512 .f32) (ix3 (0 : Fin 1) u d)
      = V m c main_arg1 (ix3 (⟨win0_8.index t (0 : Fin 4), batch_lt t⟩ : Fin 16) u d) := by
  obtain ⟨-, -, -, e3, e4, e5, -⟩ := idx_facts t
  show V m c main_arg1 (((cfg0.win 1).blk t).view.emb (ix3 (0 : Fin 1) u d)) = _
  congr 1
  funext a; apply Fin.ext
  match a with
  | ⟨0, _⟩ => show win0_1.index t (0 : Fin 3) * 1 + 1 * 0 = win0_8.index t (0 : Fin 4); omega
  | ⟨1, _⟩ => show win0_1.index t (1 : Fin 3) * 30 + 1 * u.val = u.val; omega
  | ⟨2, _⟩ => show win0_1.index t (2 : Fin 3) * 512 + 1 * d.val = d.val; omega

/-- The weight and bias blocks are the whole arrays. -/
theorem read_wenc (c : Dev nD) (t : Fin cfg0.N) (j d : Fin 512) :
    (iblk m c 2 t : Vec Ideal S512x512 .f32) (ix2 j d) = V m c main_arg2 (ix2 j d) := by
  obtain ⟨-, -, -, -, -, -, e6, e7, -⟩ := idx_facts t
  show V m c main_arg2 (((cfg0.win 2).blk t).view.emb (ix2 j d)) = _
  congr 1
  funext a; apply Fin.ext
  match a with
  | ⟨0, _⟩ => show win0_2.index t (0 : Fin 2) * 512 + 1 * j.val = j.val; omega
  | ⟨1, _⟩ => show win0_2.index t (1 : Fin 2) * 512 + 1 * d.val = d.val; omega
theorem read_benc (c : Dev nD) (t : Fin cfg0.N) (j : Fin 512) :
    (iblk m c 3 t : Vec Ideal S512 .f32) (ix1 j) = V m c main_arg3 (ix1 j) := by
  obtain ⟨-, -, -, -, -, -, -, -, e8, -⟩ := idx_facts t
  show V m c main_arg3 (((cfg0.win 3).blk t).view.emb (ix1 j)) = _
  congr 1
  funext a; apply Fin.ext
  match a with
  | ⟨0, _⟩ => show win0_3.index t (0 : Fin 1) * 512 + 1 * j.val = j.val; omega
theorem read_wdec (c : Dev nD) (t : Fin cfg0.N) (j d : Fin 512) :
    (iblk m c 4 t : Vec Ideal S512x512 .f32) (ix2 j d) = V m c main_arg4 (ix2 j d) := by
  obtain ⟨-, -, -, -, -, -, -, -, -, e9, e10, -⟩ := idx_facts t
  show V m c main_arg4 (((cfg0.win 4).blk t).view.emb (ix2 j d)) = _
  congr 1
  funext a; apply Fin.ext
  match a with
  | ⟨0, _⟩ => show win0_4.index t (0 : Fin 2) * 512 + 1 * j.val = j.val; omega
  | ⟨1, _⟩ => show win0_4.index t (1 : Fin 2) * 512 + 1 * d.val = d.val; omega
theorem read_bdec (c : Dev nD) (t : Fin cfg0.N) (j : Fin 512) :
    (iblk m c 5 t : Vec Ideal S512 .f32) (ix1 j) = V m c main_arg5 (ix1 j) := by
  obtain ⟨-, -, -, -, -, -, -, -, -, -, -, e11, -⟩ := idx_facts t
  show V m c main_arg5 (((cfg0.win 5).blk t).view.emb (ix1 j)) = _
  congr 1
  funext a; apply Fin.ext
  match a with
  | ⟨0, _⟩ => show win0_5.index t (0 : Fin 1) * 512 + 1 * j.val = j.val; omega
theorem read_wout (c : Dev nD) (t : Fin cfg0.N) (v : Fin 500) (j : Fin 512) :
    (iblk m c 6 t : Vec Ideal S500x512 .f32) (ix2 v j) = V m c main_arg6 (ix2 v j) := by
  obtain ⟨-, -, -, -, -, -, -, -, -, -, -, -, e12, e13, -⟩ := idx_facts t
  show V m c main_arg6 (((cfg0.win 6).blk t).view.emb (ix2 v j)) = _
  congr 1
  funext a; apply Fin.ext
  match a with
  | ⟨0, _⟩ => show win0_6.index t (0 : Fin 2) * 500 + 1 * v.val = v.val; omega
  | ⟨1, _⟩ => show win0_6.index t (1 : Fin 2) * 512 + 1 * j.val = j.val; omega
theorem read_bout (c : Dev nD) (t : Fin cfg0.N) (v : Fin 500) :
    (iblk m c 7 t : Vec Ideal S500 .f32) (ix1 v) = V m c main_arg7 (ix1 v) := by
  obtain ⟨-, -, -, -, -, -, -, -, -, -, -, -, -, -, e14, -⟩ := idx_facts t
  show V m c main_arg7 (((cfg0.win 7).blk t).view.emb (ix1 v)) = _
  congr 1
  funext a; apply Fin.ext
  match a with
  | ⟨0, _⟩ => show win0_7.index t (0 : Fin 1) * 500 + 1 * v.val = v.val; omega

/-! ## What each point writes back is its block of the logits -/

/-- The joiner's logits of the arrays as the region finds them. -/
abbrev L (c : Dev nD) : S16x300x30x500.Idx → EReal :=
  Cert.Joiner.logits (V m c main_arg0) (V m c main_arg1) (V m c main_arg2) (V m c main_arg3) (V m c main_arg4)
    (V m c main_arg5) (V m c main_arg6) (V m c main_arg7)

/-- An entry of the part of the result block that is written back — row `r` inside the array, position `u`,
    vocabulary entry `v` — whatever fills the frame buffer past the array's end: the logit at batch entry `t / 3`,
    frame `128 · (t % 3) + r`. -/
theorem out_entry (c : Dev nD) (t : Fin cfg0.N) (dd : Vec Ideal S1x128x512 .f32) (r : Fin 128) (u : Fin 30) (v : Fin 500)
    (hr : r.val < win0_8.xsize (grid0.coords t) (1 : Fin 4)) :
    outBlk (F := Ideal) (win0_0.fill (grid0.coords t) dd (iblk m c 0 t)) (iblk m c 1 t) (iblk m c 2 t) (iblk m c 3 t)
        (iblk m c 4 t) (iblk m c 5 t) (iblk m c 6 t) (iblk m c 7 t) (ix4 (0 : Fin 1) r u v)
      = L m c (ix4 (⟨win0_8.index t (0 : Fin 4), batch_lt t⟩ : Fin 16)
          (⟨win0_8.index t (1 : Fin 4) * 128 + r.val, frame_lt t r hr⟩ : Fin 300) u v) := by
  refine (outBlk_apply (win0_0.fill (grid0.coords t) dd (iblk m c 0 t)) (iblk m c 1 t) (iblk m c 2 t) (iblk m c 3 t)
    (iblk m c 4 t) (iblk m c 5 t) (iblk m c 6 t) (iblk m c 7 t) r u v).trans ?_
  simp only [fun d => fill_row m c t dd r d hr, read_dec m c t, read_wenc m c t, read_benc m c t, read_wdec m c t,
    read_bdec m c t, read_wout m c t, read_bout m c t]
  rfl

/-- The coordinates of an index of the part written back at point `t`. -/
theorem xinj8 (t : Fin cfg0.N) (y : (win0_8.xblock (grid0.coords t)).Idx) :
    ∃ (r : Fin 128) (u : Fin 30) (v : Fin 500) (hr : r.val < win0_8.xsize (grid0.coords t) (1 : Fin 4)),
      win0_8.xinj (grid0.coords t) y = ix4 (0 : Fin 1) r u v
      ∧ ((cfg0.win 8).blk t).view.emb y = ix4 (⟨win0_8.index t (0 : Fin 4), batch_lt t⟩ : Fin 16)
          (⟨win0_8.index t (1 : Fin 4) * 128 + r.val, frame_lt t r hr⟩ : Fin 300) u v := by
  obtain ⟨-, -, -, c3, c4, c5, -⟩ := cut_facts t
  obtain ⟨-, -, -, -, -, -, -, -, -, -, -, -, -, -, -, e15, e16, -⟩ := idx_facts t
  have h0 : (y 0).val < 1 := by
    have h : (y 0).val < win0_8.xsize (grid0.coords t) (0 : Fin 4) := (y 0).isLt
    omega
  have h1 : (y 1).val < 128 := lt_of_lt_of_le (y 1).isLt (win0_8.xsize_le _ 1)
  have h2 : (y 2).val < 30 := by
    have h : (y 2).val < win0_8.xsize (grid0.coords t) (2 : Fin 4) := (y 2).isLt
    omega
  have h3 : (y 3).val < 500 := by
    have h : (y 3).val < win0_8.xsize (grid0.coords t) (3 : Fin 4) := (y 3).isLt
    omega
  refine ⟨⟨(y 1).val, h1⟩, ⟨(y 2).val, h2⟩, ⟨(y 3).val, h3⟩, (y 1).isLt, ?_, ?_⟩
  · funext a; apply Fin.ext
    match a with
    | ⟨0, _⟩ => show (y 0).val = 0; omega
    | ⟨1, _⟩ => rfl
    | ⟨2, _⟩ => rfl
    | ⟨3, _⟩ => rfl
  · funext a; apply Fin.ext
    match a with
    | ⟨0, _⟩ => show win0_8.index t (0 : Fin 4) * 1 + 1 * (y 0).val = win0_8.index t (0 : Fin 4); omega
    | ⟨1, _⟩ => show win0_8.index t (1 : Fin 4) * 128 + 1 * (y 1).val = win0_8.index t (1 : Fin 4) * 128 + (y 1).val; omega
    | ⟨2, _⟩ => show win0_8.index t (2 : Fin 4) * 30 + 1 * (y 2).val = (y 2).val; omega
    | ⟨3, _⟩ => show win0_8.index t (3 : Fin 4) * 500 + 1 * (y 3).val = (y 3).val; omega

/-- The rows of the result block that are written back depend on the same rows of the frame block only. -/
theorem rows_only : RowsOnly m := fun c t dd => by
  funext y
  obtain ⟨r, u, v, hr, hx, -⟩ := xinj8 t y
  show outBlk (F := Ideal) (win0_0.fill (grid0.coords t) dd (iblk m c 0 t)) (iblk m c 1 t) (iblk m c 2 t) (iblk m c 3 t)
      (iblk m c 4 t) (iblk m c 5 t) (iblk m c 6 t) (iblk m c 7 t) (win0_8.xinj (grid0.coords t) y)
    = resBlk m c t (win0_8.xinj (grid0.coords t) y)
  rw [hx]
  unfold resBlk encBlk
  exact (out_entry m c t dd r u v hr).trans (out_entry m c t _ r u v hr).symm

/-- WHAT POINT `t` WRITES BACK is its block of the logits. -/
theorem flushed8_eq (c : Dev nD) (t : Fin cfg0.N) :
    (dats m 0 c).flushed 8 t = ((cfg0.win 8).blk t).view.read (Elt Ideal) (L m c) := by
  show (cfg0.win 8).cut (grid0.coords t) ((dats m 0 c).after 8 t) = _
  rw [after0_8]
  funext y
  obtain ⟨r, u, v, hr, hx, he⟩ := xinj8 t y
  show resBlk m c t (win0_8.xinj (grid0.coords t) y) = L m c (((cfg0.win 8).blk t).view.emb y)
  rw [hx, he]
  unfold resBlk encBlk
  exact out_entry m c t _ r u v hr

/-! ## The blocks written back tile the result -/

/-- An index of the result is in point `t`'s block iff each coordinate is in the block's range on its axis, the
    range cut at the array's end. -/
theorem mem_blk8 (t : Fin cfg0.N) (i : S16x300x30x500.Idx) :
    i ∈ ((cfg0.win 8).blk t).view.set ↔ ∀ a : Fin 4, win0_8.index t a * S1x128x30x500.size a ≤ (i a).val
      ∧ (i a).val < win0_8.index t a * S1x128x30x500.size a + win0_8.xsize (grid0.coords t) a := by
  show i ∈ ((View.whole main_v0).slice (win0_8.rect t)).set ↔ _
  rw [View.set_slice_whole, Rect.mem_set_unit]
  exact Iff.rfl

/-- Every index of the result is in the block of the point of its batch entry and its frame's block. -/
theorem cover8 (i : S16x300x30x500.Idx) :
    ∃ t : Fin cfg0.N, (cfg0.win 8).flush t = true ∧ i ∈ ((cfg0.win 8).blk t).view.set := by
  have hi0 : (i 0).val < 16 := (i 0).isLt
  have hi1 : (i 1).val < 300 := (i 1).isLt
  have hi2 : (i 2).val < 30 := (i 2).isLt
  have hi3 : (i 3).val < 500 := (i 3).isLt
  obtain ⟨t, ht⟩ := idx_onto ⟨(i 0).val, hi0⟩ ⟨(i 1).val / 128, by omega⟩
  have q0 : win0_8.index t (0 : Fin 4) = (i 0).val := congrFun ht 0
  have q1 : win0_8.index t (1 : Fin 4) = (i 1).val / 128 := congrFun ht 1
  have q2 : win0_8.index t (2 : Fin 4) = 0 := congrFun ht 2
  have q3 : win0_8.index t (3 : Fin 4) = 0 := congrFun ht 3
  obtain ⟨-, -, -, c3, c4, c5, c6⟩ := cut_facts t
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + win0_8.xsize (grid0.coords t) (0 : Fin 4); omega
  | ⟨1, _⟩ => show win0_8.index t (1 : Fin 4) * 128 ≤ (i 1).val ∧ (i 1).val < win0_8.index t (1 : Fin 4) * 128 + win0_8.xsize (grid0.coords t) (1 : Fin 4); omega
  | ⟨2, _⟩ => show win0_8.index t (2 : Fin 4) * 30 ≤ (i 2).val ∧ (i 2).val < win0_8.index t (2 : Fin 4) * 30 + win0_8.xsize (grid0.coords t) (2 : Fin 4); omega
  | ⟨3, _⟩ => show win0_8.index t (3 : Fin 4) * 500 ≤ (i 3).val ∧ (i 3).val < win0_8.index t (3 : Fin 4) * 500 + win0_8.xsize (grid0.coords t) (3 : Fin 4); omega

/-- THE RESULT ARRAY after the run is the logits of the argument arrays. -/
theorem final8 (c : Dev nD) : (dats m 0 c).arrAt 8 cfg0.N = L m c :=
  (dats m 0 c).arrAt_eq_of_cover 8 (L m c) (fun t _ => flushed8_eq m c t) cover8

/-! ## The run, read -/

/-- Every weakly fair execution of the idealized kernel terminates with the result at the logits of the argument
    arrays and the arguments unchanged. -/
theorem run : θ_run defs (onTc (τ := τ) (main (F := Ideal))) ⟨m, fun _ => 0, ρ⟩ fun r => ∀ c : Dev nD,
      r.2.mem ((c.tc : Thread nD τ).loc main_v0) = L m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (final8 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ (rows_only m))

end Cert.KernelIdeal.Hand

end
-- ==== Proof.RefValue.lean ====
/-
  The reference's result, read one operation at a time, is the joiner's logits (`Cert.Joiner.logits`) of the
  argument arrays.

  The reference computes, for a batch entry `b`, an encoder frame `t`, a decoder position `u`, a joint feature `j`
  and a vocabulary entry `v`:
    the encoder stage   e(b,t,j) = Σ_d x(b,t,d) · We(j,d) + be(j)      (a contraction, a bias broadcast along b and t),
    the decoder stage   p(b,u,j) = Σ_d y(b,u,d) · Wd(j,d) + bd(j)      (likewise),
    the joint stage     s(b,t,u,j) = e(b,t,j) + p(b,u,j)               (e broadcast along u, p broadcast along t),
    the result          L(b,t,u,v) = Σ_j s(b,t,u,j) · Wo(v,j) + bo(v)  (a contraction, a bias broadcast along b, t, u).
  Each stage is read at an index built from coordinates; the only facts used are that a broadcast reads its operand
  at the index with the broadcast axes dropped, and that a contraction is the sum over its one contracted axis. No
  algebraic law is used: both sides are the same expression tree.
-/
import proofs.«132632_j6803228197541_1_alg».proof.Proof.Gen.ReferenceIdeal.Read
import proofs.«132632_j6803228197541_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## Indices: the composed index maps of the reference at an index given by coordinates -/

/-- The encoder contraction reads its left operand at `(b, t, d)`. -/
theorem lidx_v0 (b : Fin 16) (t : Fin 300) (j d : Fin 512) : lidx_main_v0 (ix3 b t j) d = ix3 b t d :=
  funext fun a => Fin.ext (by match a with | ⟨0, _⟩ => rfl | ⟨1, _⟩ => rfl | ⟨2, _⟩ => rfl)
/-- The encoder contraction reads its right operand at `(j, d)`. -/
theorem ridx_v0 (b : Fin 16) (t : Fin 300) (j d : Fin 512) : ridx_main_v0 (ix3 b t j) d = ix2 j d :=
  funext fun a => Fin.ext (by match a with | ⟨0, _⟩ => rfl | ⟨1, _⟩ => rfl)
/-- The encoder bias, broadcast along `b` and `t`, is read at `j`. -/
theorem idx_v1_v2 (b : Fin 16) (t : Fin 300) (j : Fin 512) : idx_main_v1 (idx_main_v2 (ix3 b t j)) = ix1 j :=
  funext fun a => Fin.ext (by match a with | ⟨0, _⟩ => rfl)
/-- The decoder contraction reads its left operand at `(b, u, d)`. -/
theorem lidx_v4 (b : Fin 16) (u : Fin 30) (j d : Fin 512) : lidx_main_v4 (ix3 b u j) d = ix3 b u d :=
  funext fun a => Fin.ext (by match a with | ⟨0, _⟩ => rfl | ⟨1, _⟩ => rfl | ⟨2, _⟩ => rfl)
/-- The decoder contraction reads its right operand at `(j, d)`. -/
theorem ridx_v4 (b : Fin 16) (u : Fin 30) (j d : Fin 512) : ridx_main_v4 (ix3 b u j) d = ix2 j d :=
  funext fun a => Fin.ext (by match a with | ⟨0, _⟩ => rfl | ⟨1, _⟩ => rfl)
/-- The decoder bias, broadcast along `b` and `u`, is read at `j`. -/
theorem idx_v5_v6 (b : Fin 16) (u : Fin 30) (j : Fin 512) : idx_main_v5 (idx_main_v6 (ix3 b u j)) = ix1 j :=
  funext fun a => Fin.ext (by match a with | ⟨0, _⟩ => rfl)
/-- The encoder stage, given a unit axis and broadcast along `u`, is read at `(b, t, j)`. -/
theorem idx_v8_v10 (b : Fin 16) (t : Fin 300) (u : Fin 30) (j : Fin 512) :
    idx_main_v8 (idx_main_v10 (ix4 b t u j)) = ix3 b t j :=
  funext fun a => Fin.ext (by match a with | ⟨0, _⟩ => rfl | ⟨1, _⟩ => rfl | ⟨2, _⟩ => rfl)
/-- The decoder stage, given a unit axis and broadcast along `t`, is read at `(b, u, j)`. -/
theorem idx_v9_v11 (b : Fin 16) (t : Fin 300) (u : Fin 30) (j : Fin 512) :
    idx_main_v9 (idx_main_v11 (ix4 b t u j)) = ix3 b u j :=
  funext fun a => Fin.ext (by match a with | ⟨0, _⟩ => rfl | ⟨1, _⟩ => rfl | ⟨2, _⟩ => rfl)
/-- The last contraction reads its left operand at `(b, t, u, j)`. -/
theorem lidx_v13 (b : Fin 16) (t : Fin 300) (u : Fin 30) (v : Fin 500) (j : Fin 512) :
    lidx_main_v13 (ix4 b t u v) j = ix4 b t u j :=
  funext fun a => Fin.ext (by match a with | ⟨0, _⟩ => rfl | ⟨1, _⟩ => rfl | ⟨2, _⟩ => rfl | ⟨3, _⟩ => rfl)
/-- The last contraction reads its right operand at `(v, j)`. -/
theorem ridx_v13 (b : Fin 16) (t : Fin 300) (u : Fin 30) (v : Fin 500) (j : Fin 512) :
    ridx_main_v13 (ix4 b t u v) j = ix2 v j :=
  funext fun a => Fin.ext (by match a with | ⟨0, _⟩ => rfl | ⟨1, _⟩ => rfl)
/-- The vocabulary bias, broadcast along `b`, `t` and `u`, is read at `v`. -/
theorem idx_v14_v15 (b : Fin 16) (t : Fin 300) (u : Fin 30) (v : Fin 500) :
    idx_main_v14 (idx_main_v15 (ix4 b t u v)) = ix1 v :=
  funext fun a => Fin.ext (by match a with | ⟨0, _⟩ => rfl)

/-! ## The stages -/

/-- The encoder stage at `(b, t, j)` is the encoder projection. -/
theorem enc_stage (x0 : (⟨S16x300x512, .f32⟩ : BufTy).Contents (Elt Ideal)) (x2 : (⟨S512x512, .f32⟩ : BufTy).Contents (Elt Ideal)) (x3 : (⟨S512, .f32⟩ : BufTy).Contents (Elt Ideal))
    (b : Fin 16) (t : Fin 300) (j : Fin 512) :
    val_main_v3 (F := Ideal) x0 x2 x3 (ix3 b t j) = Cert.Joiner.encProj x0 x2 x3 b t j := by
  rw [val_main_v3_apply, val_main_v0_apply, val_main_v2_apply, val_main_v1_apply, idx_v1_v2]
  unfold Cert.Joiner.encProj
  show (∑ k : Fin 512, x0 (lidx_main_v0 (ix3 b t j) k) * x2 (ridx_main_v0 (ix3 b t j) k)) + x3 (ix1 j) = _
  congr 1
  exact Finset.sum_congr rfl fun k _ => by rw [lidx_v0, ridx_v0]

/-- The decoder stage at `(b, u, j)` is the decoder projection. -/
theorem dec_stage (x1 : (⟨S16x30x512, .f32⟩ : BufTy).Contents (Elt Ideal)) (x4 : (⟨S512x512, .f32⟩ : BufTy).Contents (Elt Ideal)) (x5 : (⟨S512, .f32⟩ : BufTy).Contents (Elt Ideal))
    (b : Fin 16) (u : Fin 30) (j : Fin 512) :
    val_main_v7 (F := Ideal) x1 x4 x5 (ix3 b u j) = Cert.Joiner.decProj x1 x4 x5 b u j := by
  rw [val_main_v7_apply, val_main_v4_apply, val_main_v6_apply, val_main_v5_apply, idx_v5_v6]
  unfold Cert.Joiner.decProj
  show (∑ k : Fin 512, x1 (lidx_main_v4 (ix3 b u j) k) * x4 (ridx_main_v4 (ix3 b u j) k)) + x5 (ix1 j) = _
  congr 1
  exact Finset.sum_congr rfl fun k _ => by rw [lidx_v4, ridx_v4]

/-- The joint stage at `(b, t, u, j)` is the sum of the two projections. -/
theorem joint_stage (x0 : (⟨S16x300x512, .f32⟩ : BufTy).Contents (Elt Ideal)) (x1 : (⟨S16x30x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (b : Fin 16) (t : Fin 300) (u : Fin 30) (j : Fin 512) :
    val_main_v12 (F := Ideal) x0 x1 x2 x3 x4 x5 (ix4 b t u j)
      = Cert.Joiner.encProj x0 x2 x3 b t j + Cert.Joiner.decProj x1 x4 x5 b u j := by
  rw [val_main_v12_apply, val_main_v10_apply, val_main_v8_apply, val_main_v11_apply, val_main_v9_apply,
    idx_v8_v10, idx_v9_v11, enc_stage, dec_stage]
  rfl

/-! ## The result -/

/-- The reference's result is the joiner's logits of the eight argument arrays. -/
theorem ref_is_logits (x0 : (⟨S16x300x512, .f32⟩ : BufTy).Contents (Elt Ideal)) (x1 : (⟨S16x30x512, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S500x512, .f32⟩ : BufTy).Contents (Elt Ideal)) (x7 : (⟨S500, .f32⟩ : BufTy).Contents (Elt Ideal)) :
    val_main_v16 (F := Ideal) x0 x1 x2 x3 x4 x5 x6 x7 = Cert.Joiner.logits x0 x1 x2 x3 x4 x5 x6 x7 := by
  funext i
  obtain ⟨b, t, u, v, rfl⟩ : ∃ b t u v, i = ix4 b t u v := ⟨i 0, i 1, i 2, i 3, eq_ix4 i⟩
  rw [val_main_v16_apply, val_main_v13_apply, val_main_v15_apply, val_main_v14_apply, idx_v14_v15]
  show (∑ k : Fin 512, val_main_v12 (F := Ideal) x0 x1 x2 x3 x4 x5 (lidx_main_v13 (ix4 b t u v) k)
      * x6 (ridx_main_v13 (ix4 b t u v) k)) + x7 (ix1 v)
    = (∑ j : Fin 512, (Cert.Joiner.encProj x0 x2 x3 b t j + Cert.Joiner.decProj x1 x4 x5 b u j) * x6 (ix2 v j))
      + x7 (ix1 v)
  congr 1
  exact Finset.sum_congr rfl fun k _ => by rw [lidx_v13, ridx_v13, joint_stage]

end Cert.ReferenceIdeal.RefValue

end
-- ==== Proof.lean ====
/-
  The joiner kernel against its reference: the five claims.

  Both programs compute, for a batch entry `b`, an encoder frame `t`, a decoder position `u` and a vocabulary entry
  `v`, the logit Σ_j ((Σ_d x(b,t,d)·We(j,d) + be(j)) + (Σ_d y(b,u,d)·Wd(j,d) + bd(j))) · Wo(v,j) + bo(v)
  (`Cert.Joiner.logits`). The kernel does so one block of 128 frames at a time over a grid of 16 batch entries by
  3 frame blocks; the third frame block overhangs the array (300 = 2·128 + 44), so its fetch and its write-back
  are cut at the array's end and the rows of the staging buffers past it hold values nothing names. Over the
  extended reals a matrix product is a sum of products row by row, so those rows reach only rows of the result
  block that are never written back, and the result array ends at the logits index by index; the reference's
  operations, read one at a time, are the same expression tree. No law of arithmetic beyond reading each
  operation at an index is used, and the finiteness of the inputs is never needed.

  The word-level kernel's frame is proved with the result window's contents left unnamed (at the word level the
  matrix unit's product is not a row-by-row function); the idealized kernel's frame is its value run with the
  result dropped; the reference's frame is its run with the result dropped; the ideal pass rewrote nothing.
-/
import proofs.«132632_j6803228197541_1_alg».proof.Defs
import proofs.«132632_j6803228197541_1_alg».proof.Proof.Gen.Kernel
import proofs.«132632_j6803228197541_1_alg».proof.Proof.Gen.KernelIdeal
import proofs.«132632_j6803228197541_1_alg».proof.Proof.Gen.ReferenceIdeal
import proofs.«132632_j6803228197541_1_alg».proof.Proof.Gen.Pre_finite_inputs
import proofs.«132632_j6803228197541_1_alg».proof.Proof.Gen.ReferenceIdeal.Run
import proofs.«132632_j6803228197541_1_alg».proof.Proof.Gen.ReferenceIdeal.Read
import proofs.«132632_j6803228197541_1_alg».proof.Proof.BFrame
import proofs.«132632_j6803228197541_1_alg».proof.Proof.KValue
import proofs.«132632_j6803228197541_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : @Cert.frame_Kernel Cert.Kernel.Gen.facts Cert.Pre_finite_inputs.Gen.facts :=
  fun m ρ _ => Cert.Kernel.Hand.frame (F := Bits) m ρ

/-- The idealized kernel's frame: its value run with the result dropped. -/
theorem frame_kernelIdeal : @Cert.frame_KernelIdeal Cert.KernelIdeal.Gen.facts Cert.Pre_finite_inputs.Gen.facts :=
  fun m ρ _ => (θ_run Cert.KernelIdeal.defs _ _).mono (fun _ h c => (h c).2) (Cert.KernelIdeal.Hand.run m ρ)

/-- The reference's frame: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the eight arguments both idealized programs end with the logits of those arguments:
    the kernel's result array by its value run, the reference's by its run read one operation at a time. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.L m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.ref_is_logits,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
